-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v112)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S128x10 .f32) (main_arg10 : FVec F S10 .f32) (main_v33 : IVec S_ 1) : IVec S_ 1 :=
  let main_v34 : FVec F S128x10 .f32 := Host.absf main_arg9
  let main_cst_12 : FVec F S_ .f32 := constant S_ .f32 0x7F800000#32
  let main_v35 : FVec F S128x10 .f32 := broadcastInDim S128x10 ![] bcast_S_S128x10 main_cst_12
  let main_v36 : IVec S128x10 1 := cmpf .olt main_v34 main_v35
  let main_c_13 : IVec S_ 1 := constantI S_ 1 1#1
  let main_v37 : IVec S_ 1 := (fun x v => Host.reduce IntOp.andi x v reducesTo_S128x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x10 .f32) (main_arg10 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x600000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x10 .f32) (main_arg10 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S50176x128 : Shape := ⟨2, ![50176, 128]⟩
abbrev S1 : Shape := ⟨1, ![1]⟩
abbrev S1568x128 : Shape := ⟨2, ![1568, 128]⟩
abbrev S650000x128 : Shape := ⟨2, ![650000, 128]⟩
abbrev S1x128 : Shape := ⟨2, ![1, 128]⟩
abbrev S64 : Shape := ⟨1, ![64]⟩
abbrev S50000x1 : Shape := ⟨2, ![50000, 1]⟩
abbrev S64x128 : Shape := ⟨2, ![64, 128]⟩
abbrev S64x1 : Shape := ⟨2, ![64, 1]⟩
abbrev S64x10 : Shape := ⟨2, ![64, 10]⟩
abbrev S1x10 : Shape := ⟨2, ![1, 10]⟩

abbrev nBuf : Space → Nat
  | .hbm => 155
  | .vmem => 15
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x10, .f32⟩
  | 10 => ⟨S10, .f32⟩
  | 11 => ⟨S1x600000, .i32⟩
  | 12 => ⟨S600000, .i32⟩
  | 13 => ⟨S1x600000, .i32⟩
  | 14 => ⟨S600000, .i32⟩
  | 15 => ⟨S50000, .i32⟩
  | 16 => ⟨S650000, .i32⟩
  | 17 => ⟨S650000, .i32⟩
  | 18 => ⟨S_, .f32⟩
  | 19 => ⟨S650000, .f32⟩
  | 20 => ⟨S_, .f32⟩
  | 21 => ⟨S50000, .f32⟩
  | 22 => ⟨S650000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S650000, .i32⟩
  | 34 => ⟨S650000, .i1⟩
  | 35 => ⟨S_, .i32⟩
  | 36 => ⟨S650000, .i32⟩
  | 37 => ⟨S650000, .i32⟩
  | 38 => ⟨S650000, .i32⟩
  | 39 => ⟨S650000x1, .i32⟩
  | 40 => ⟨S650000, .f32⟩
  | 41 => ⟨S_, .i32⟩
  | 42 => ⟨S650000, .i32⟩
  | 43 => ⟨S650000, .i1⟩
  | 44 => ⟨S_, .i32⟩
  | 45 => ⟨S650000, .i32⟩
  | 46 => ⟨S650000, .i32⟩
  | 47 => ⟨S650000, .i32⟩
  | 48 => ⟨S650000x1, .i32⟩
  | 49 => ⟨S650000, .f32⟩
  | 50 => ⟨S650000, .f32⟩
  | 51 => ⟨S_, .f32⟩
  | 52 => ⟨S50176x128, .f32⟩
  | 53 => ⟨S_, .i32⟩
  | 54 => ⟨S1, .i32⟩
  | 55 => ⟨S50176x128, .f32⟩
  | 56 => ⟨S50176x128, .f32⟩
  | 57 => ⟨S50000x128, .f32⟩
  | 58 => ⟨S_, .i32⟩
  | 59 => ⟨S650000, .i32⟩
  | 60 => ⟨S650000, .i1⟩
  | 61 => ⟨S_, .i32⟩
  | 62 => ⟨S650000, .i32⟩
  | 63 => ⟨S650000, .i32⟩
  | 64 => ⟨S650000, .i32⟩
  | 65 => ⟨S650000x1, .i32⟩
  | 66 => ⟨S650000x128, .f32⟩
  | 67 => ⟨S650000x1, .f32⟩
  | 68 => ⟨S650000x128, .f32⟩
  | 69 => ⟨S650000x128, .f32⟩
  | 70 => ⟨S_, .f32⟩
  | 71 => ⟨S50000x128, .f32⟩
  | 72 => ⟨S650000x1, .i32⟩
  | 73 => ⟨S50000x128, .f32⟩
  | 74 => ⟨S1x128, .f32⟩
  | 75 => ⟨S50000x128, .f32⟩
  | 76 => ⟨S50000x128, .f32⟩
  | 77 => ⟨S_, .f32⟩
  | 78 => ⟨S50000x128, .f32⟩
  | 79 => ⟨S50000x128, .f32⟩
  | 80 => ⟨S_, .f32⟩
  | 81 => ⟨S50176x128, .f32⟩
  | 82 => ⟨S_, .i32⟩
  | 83 => ⟨S1, .i32⟩
  | 84 => ⟨S50176x128, .f32⟩
  | 85 => ⟨S50176x128, .f32⟩
  | 86 => ⟨S50000x128, .f32⟩
  | 87 => ⟨S_, .i32⟩
  | 88 => ⟨S650000, .i32⟩
  | 89 => ⟨S650000, .i1⟩
  | 90 => ⟨S_, .i32⟩
  | 91 => ⟨S650000, .i32⟩
  | 92 => ⟨S650000, .i32⟩
  | 93 => ⟨S650000, .i32⟩
  | 94 => ⟨S650000x1, .i32⟩
  | 95 => ⟨S650000x128, .f32⟩
  | 96 => ⟨S650000x1, .f32⟩
  | 97 => ⟨S650000x128, .f32⟩
  | 98 => ⟨S650000x128, .f32⟩
  | 99 => ⟨S_, .f32⟩
  | 100 => ⟨S50000x128, .f32⟩
  | 101 => ⟨S650000x1, .i32⟩
  | 102 => ⟨S50000x128, .f32⟩
  | 103 => ⟨S1x128, .f32⟩
  | 104 => ⟨S50000x128, .f32⟩
  | 105 => ⟨S50000x128, .f32⟩
  | 106 => ⟨S_, .f32⟩
  | 107 => ⟨S50000x128, .f32⟩
  | 108 => ⟨S50000x128, .f32⟩
  | 109 => ⟨S_, .f32⟩
  | 110 => ⟨S50176x128, .f32⟩
  | 111 => ⟨S_, .i32⟩
  | 112 => ⟨S1, .i32⟩
  | 113 => ⟨S50176x128, .f32⟩
  | 114 => ⟨S50176x128, .f32⟩
  | 115 => ⟨S50000x128, .f32⟩
  | 116 => ⟨S_, .i32⟩
  | 117 => ⟨S650000, .i32⟩
  | 118 => ⟨S650000, .i1⟩
  | 119 => ⟨S_, .i32⟩
  | 120 => ⟨S650000, .i32⟩
  | 121 => ⟨S650000, .i32⟩
  | 122 => ⟨S650000, .i32⟩
  | 123 => ⟨S650000x1, .i32⟩
  | 124 => ⟨S650000x128, .f32⟩
  | 125 => ⟨S650000x1, .f32⟩
  | 126 => ⟨S650000x128, .f32⟩
  | 127 => ⟨S650000x128, .f32⟩
  | _ => ⟨S50000x128, .f32⟩

abbrev hbmTy0_1 (i : Nat) : BufTy := match i % 128 with
  | 0 => ⟨S_, .f32⟩
  | 1 => ⟨S50000x128, .f32⟩
  | 2 => ⟨S650000x1, .i32⟩
  | 3 => ⟨S50000x128, .f32⟩
  | 4 => ⟨S1x128, .f32⟩
  | 5 => ⟨S50000x128, .f32⟩
  | 6 => ⟨S50000x128, .f32⟩
  | 7 => ⟨S_, .f32⟩
  | 8 => ⟨S50000, .f32⟩
  | 9 => ⟨S_, .f32⟩
  | 10 => ⟨S64, .f32⟩
  | 11 => ⟨S50000x1, .i32⟩
  | 12 => ⟨S64, .f32⟩
  | 13 => ⟨S_, .f32⟩
  | 14 => ⟨S64x128, .f32⟩
  | 15 => ⟨S50000x1, .i32⟩
  | 16 => ⟨S64x128, .f32⟩
  | 17 => ⟨S_, .f32⟩
  | 18 => ⟨S64, .f32⟩
  | 19 => ⟨S64, .f32⟩
  | 20 => ⟨S64x1, .f32⟩
  | 21 => ⟨S64x128, .f32⟩
  | 22 => ⟨S64x128, .f32⟩
  | 23 => ⟨S64x10, .f32⟩
  | 24 => ⟨S1x10, .f32⟩
  | 25 => ⟨S64x10, .f32⟩
  | 26 => ⟨S64x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S1568x128, .f32⟩
  | .local _ .vmem, ⟨1, _⟩ => ⟨S1568x128, .f32⟩
  | .local _ .vmem, ⟨2, _⟩ => ⟨S128x128, .f32⟩
  | .local _ .vmem, ⟨3, _⟩ => ⟨S1568x128, .f32⟩
  | .local _ .vmem, ⟨4, _⟩ => ⟨S1568x128, .f32⟩
  | .local _ .vmem, ⟨5, _⟩ => ⟨S1568x128, .f32⟩
  | .local _ .vmem, ⟨6, _⟩ => ⟨S1568x128, .f32⟩
  | .local _ .vmem, ⟨7, _⟩ => ⟨S128x128, .f32⟩
  | .local _ .vmem, ⟨8, _⟩ => ⟨S1568x128, .f32⟩
  | .local _ .vmem, ⟨9, _⟩ => ⟨S1568x128, .f32⟩
  | .local _ .vmem, ⟨10, _⟩ => ⟨S1568x128, .f32⟩
  | .local _ .vmem, ⟨11, _⟩ => ⟨S1568x128, .f32⟩
  | .local _ .vmem, ⟨12, _⟩ => ⟨S128x128, .f32⟩
  | .local _ .vmem, ⟨13, _⟩ => ⟨S1568x128, .f32⟩
  | .local _ .vmem, ⟨14, _⟩ => ⟨S1568x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_6 : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_c_9 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_10 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_11 : Ref sig .tc := ⟨.hbm, 77, rfl⟩
abbrev main_v51 : Ref sig .tc := ⟨.hbm, 78, rfl⟩
abbrev main_v52 : Ref sig .tc := ⟨.hbm, 79, rfl⟩
abbrev main_cst_12 : Ref sig .tc := ⟨.hbm, 80, rfl⟩
abbrev main_v53 : Ref sig .tc := ⟨.hbm, 81, rfl⟩
abbrev main_c_13 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_14 : Ref sig .tc := ⟨.hbm, 87, rfl⟩
abbrev main_v58 : Ref sig .tc := ⟨.hbm, 88, rfl⟩
abbrev main_v59 : Ref sig .tc := ⟨.hbm, 89, rfl⟩
abbrev main_c_15 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_16 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_17 : Ref sig .tc := ⟨.hbm, 106, rfl⟩
abbrev main_v74 : Ref sig .tc := ⟨.hbm, 107, rfl⟩
abbrev main_v75 : Ref sig .tc := ⟨.hbm, 108, rfl⟩
abbrev main_cst_18 : Ref sig .tc := ⟨.hbm, 109, rfl⟩
abbrev main_v76 : Ref sig .tc := ⟨.hbm, 110, rfl⟩
abbrev main_c_19 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_c_20 : Ref sig .tc := ⟨.hbm, 116, rfl⟩
abbrev main_v81 : Ref sig .tc := ⟨.hbm, 117, rfl⟩
abbrev main_v82 : Ref sig .tc := ⟨.hbm, 118, rfl⟩
abbrev main_c_21 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_22 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_cst_23 : Ref sig .tc := ⟨.hbm, 135, rfl⟩
abbrev main_v97 : Ref sig .tc := ⟨.hbm, 136, rfl⟩
abbrev main_cst_24 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_cst_25 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_cst_26 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1568x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1568x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1568x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1568x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1568x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1568x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S_S50176x128 : S_.BroadcastsInDim S50176x128 (![] : Fin 0 → Fin S50176x128.rank)
  bcast_S_S1 : S_.BroadcastsInDim S1 (![] : Fin 0 → Fin S1.rank)
  inb_S1568x128_S1568x128_0_0 : ∀ a, (![0, 0] : Fin 2 → Nat) a + S1568x128.size a ≤ S1568x128.size a
  h_S1568x128 : 0 < S1568x128.numel
  shapeCasts_S1568x128_S1568x128 : S1568x128.ShapeCasts S1568x128
  inb_S128x128_S128x128_0_0 : ∀ a, (![0, 0] : Fin 2 → Nat) a + S128x128.size a ≤ S128x128.size a
  h_S128x128 : 0 < S128x128.numel
  slices_S50176x128_S50000x128_0_0 : S50176x128.Slices ![0, 0] S50000x128
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64 : S_.BroadcastsInDim S64 (![] : Fin 0 → Fin S64.rank)
  bcast_S50000_S50000x1_0 : S50000.BroadcastsInDim S50000x1 (![0] : Fin 1 → Fin S50000x1.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  scatter_S50176x128_S1_S50000x128_01_n_0_0_wf : ScatterDims.WF S50176x128 S1 S50000x128 [0, 1] [] [0] 0
  dot_S1568x128_S128x128_S1568x128_1_0_0_1_n_n_wf : DotDims.WF S1568x128 S128x128 S1568x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  scatter_S64_S50000x1_S50000_n_0_0_1_wf : ScatterDims.WF S64 S50000x1 S50000 [] [0] [0] 1
  scatter_S64x128_S50000x1_S50000x128_1_0_0_1_wf : ScatterDims.WF S64x128 S50000x1 S50000x128 [1] [0] [0] 1
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1568x128.size a ≤ S50176x128.size a
  hwx0_0 : ∀ i : grid0.Coords, EltTy.bits .f32 = 32 ∨ (Rect.block (s := S50176x128) S1568x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1568x128.size a ≤ S50176x128.size a
  hwx0_2 : ∀ i : grid0.Coords, EltTy.bits .f32 = 32 ∨ (Rect.block (s := S50176x128) S1568x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1568x128.size a ≤ S50176x128.size a
  hwx1_0 : ∀ i : grid1.Coords, EltTy.bits .f32 = 32 ∨ (Rect.block (s := S50176x128) S1568x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1568x128.size a ≤ S50176x128.size a
  hwx1_2 : ∀ i : grid1.Coords, EltTy.bits .f32 = 32 ∨ (Rect.block (s := S50176x128) S1568x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1568x128.size a ≤ S50176x128.size a
  hwx2_0 : ∀ i : grid2.Coords, EltTy.bits .f32 = 32 ∨ (Rect.block (s := S50176x128) S1568x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1568x128.size a ≤ S50176x128.size a
  hwx2_2 : ∀ i : grid2.Coords, EltTy.bits .f32 = 32 ∨ (Rect.block (s := S50176x128) S1568x128.size (cc2_transform_2 i) (hinb2_2 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def scatter_S50176x128_S1_S50000x128_01_n_0_0 : ScatterDims S50176x128 S1 S50000x128 where
  updateWindowDims := [0, 1]
  insertedWindowDims := []
  scatterDimsToOperandDims := [0]
  indexVectorDim := 0
  wf := scatter_S50176x128_S1_S50000x128_01_n_0_0_wf
def dot_S1568x128_S128x128_S1568x128_1_0_0_1_n_n : DotDims S1568x128 S128x128 S1568x128 where
  lhsContracting := [1]
  rhsContracting := [0]
  lhsNonContracting := [0]
  rhsNonContracting := [1]
  lhsBatch := []
  rhsBatch := []
  wf := dot_S1568x128_S128x128_S1568x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_v32) S1568x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1568x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v55) S1568x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v56) S1568x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v78) S1568x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v79) S1568x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S64 : Shape := ⟨1, ![64]⟩
abbrev S50000x1 : Shape := ⟨2, ![50000, 1]⟩
abbrev S64x128 : Shape := ⟨2, ![64, 128]⟩
abbrev S64x1 : Shape := ⟨2, ![64, 1]⟩
abbrev S64x10 : Shape := ⟨2, ![64, 10]⟩
abbrev S1x10 : Shape := ⟨2, ![1, 10]⟩

abbrev nBuf : Space → Nat
  | .hbm => 137
  | .vmem => 0
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x10, .f32⟩
  | 10 => ⟨S10, .f32⟩
  | 11 => ⟨S1x600000, .i32⟩
  | 12 => ⟨S600000, .i32⟩
  | 13 => ⟨S1x600000, .i32⟩
  | 14 => ⟨S600000, .i32⟩
  | 15 => ⟨S50000, .i32⟩
  | 16 => ⟨S650000, .i32⟩
  | 17 => ⟨S650000, .i32⟩
  | 18 => ⟨S_, .f32⟩
  | 19 => ⟨S650000, .f32⟩
  | 20 => ⟨S_, .f32⟩
  | 21 => ⟨S50000, .f32⟩
  | 22 => ⟨S650000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S650000, .i32⟩
  | 34 => ⟨S650000, .i1⟩
  | 35 => ⟨S_, .i32⟩
  | 36 => ⟨S650000, .i32⟩
  | 37 => ⟨S650000, .i32⟩
  | 38 => ⟨S650000, .i32⟩
  | 39 => ⟨S650000x1, .i32⟩
  | 40 => ⟨S650000, .f32⟩
  | 41 => ⟨S_, .i32⟩
  | 42 => ⟨S650000, .i32⟩
  | 43 => ⟨S650000, .i1⟩
  | 44 => ⟨S_, .i32⟩
  | 45 => ⟨S650000, .i32⟩
  | 46 => ⟨S650000, .i32⟩
  | 47 => ⟨S650000, .i32⟩
  | 48 => ⟨S650000x1, .i32⟩
  | 49 => ⟨S650000, .f32⟩
  | 50 => ⟨S650000, .f32⟩
  | 51 => ⟨S50000x128, .f32⟩
  | 52 => ⟨S_, .i32⟩
  | 53 => ⟨S650000, .i32⟩
  | 54 => ⟨S650000, .i1⟩
  | 55 => ⟨S_, .i32⟩
  | 56 => ⟨S650000, .i32⟩
  | 57 => ⟨S650000, .i32⟩
  | 58 => ⟨S650000, .i32⟩
  | 59 => ⟨S650000x1, .i32⟩
  | 60 => ⟨S650000x128, .f32⟩
  | 61 => ⟨S650000x1, .f32⟩
  | 62 => ⟨S650000x128, .f32⟩
  | 63 => ⟨S650000x128, .f32⟩
  | 64 => ⟨S_, .f32⟩
  | 65 => ⟨S50000x128, .f32⟩
  | 66 => ⟨S650000x1, .i32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000x128, .f32⟩
  | 75 => ⟨S_, .i32⟩
  | 76 => ⟨S650000, .i32⟩
  | 77 => ⟨S650000, .i1⟩
  | 78 => ⟨S_, .i32⟩
  | 79 => ⟨S650000, .i32⟩
  | 80 => ⟨S650000, .i32⟩
  | 81 => ⟨S650000, .i32⟩
  | 82 => ⟨S650000x1, .i32⟩
  | 83 => ⟨S650000x128, .f32⟩
  | 84 => ⟨S650000x1, .f32⟩
  | 85 => ⟨S650000x128, .f32⟩
  | 86 => ⟨S650000x128, .f32⟩
  | 87 => ⟨S_, .f32⟩
  | 88 => ⟨S50000x128, .f32⟩
  | 89 => ⟨S650000x1, .i32⟩
  | 90 => ⟨S50000x128, .f32⟩
  | 91 => ⟨S1x128, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S50000x128, .f32⟩
  | 98 => ⟨S_, .i32⟩
  | 99 => ⟨S650000, .i32⟩
  | 100 => ⟨S650000, .i1⟩
  | 101 => ⟨S_, .i32⟩
  | 102 => ⟨S650000, .i32⟩
  | 103 => ⟨S650000, .i32⟩
  | 104 => ⟨S650000, .i32⟩
  | 105 => ⟨S650000x1, .i32⟩
  | 106 => ⟨S650000x128, .f32⟩
  | 107 => ⟨S650000x1, .f32⟩
  | 108 => ⟨S650000x128, .f32⟩
  | 109 => ⟨S650000x128, .f32⟩
  | 110 => ⟨S_, .f32⟩
  | 111 => ⟨S50000x128, .f32⟩
  | 112 => ⟨S650000x1, .i32⟩
  | 113 => ⟨S50000x128, .f32⟩
  | 114 => ⟨S1x128, .f32⟩
  | 115 => ⟨S50000x128, .f32⟩
  | 116 => ⟨S50000x128, .f32⟩
  | 117 => ⟨S_, .f32⟩
  | 118 => ⟨S50000, .f32⟩
  | 119 => ⟨S_, .f32⟩
  | 120 => ⟨S64, .f32⟩
  | 121 => ⟨S50000x1, .i32⟩
  | 122 => ⟨S64, .f32⟩
  | 123 => ⟨S_, .f32⟩
  | 124 => ⟨S64x128, .f32⟩
  | 125 => ⟨S50000x1, .i32⟩
  | 126 => ⟨S64x128, .f32⟩
  | 127 => ⟨S_, .f32⟩
  | _ => ⟨S50000x128, .f32⟩

abbrev hbmTy0_1 (i : Nat) : BufTy := match i % 128 with
  | 0 => ⟨S64, .f32⟩
  | 1 => ⟨S64, .f32⟩
  | 2 => ⟨S64x1, .f32⟩
  | 3 => ⟨S64x128, .f32⟩
  | 4 => ⟨S64x128, .f32⟩
  | 5 => ⟨S64x10, .f32⟩
  | 6 => ⟨S1x10, .f32⟩
  | 7 => ⟨S64x10, .f32⟩
  | 8 => ⟨S64x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call2_cst : Ref sig .tc := ⟨.hbm, 94, rfl⟩
abbrev main_call2_v0 : Ref sig .tc := ⟨.hbm, 95, rfl⟩
abbrev main_v65 : Ref sig .tc := ⟨.hbm, 96, rfl⟩
abbrev main_v66 : Ref sig .tc := ⟨.hbm, 97, rfl⟩
abbrev main_c_12 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_14 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_15 : Ref sig .tc := ⟨.hbm, 117, rfl⟩
abbrev main_v83 : Ref sig .tc := ⟨.hbm, 118, rfl⟩
abbrev main_cst_16 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_17 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_18 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64 : S_.BroadcastsInDim S64 (![] : Fin 0 → Fin S64.rank)
  bcast_S50000_S50000x1_0 : S50000.BroadcastsInDim S50000x1 (![0] : Fin 1 → Fin S50000x1.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  scatter_S64_S50000x1_S50000_n_0_0_1_wf : ScatterDims.WF S64 S50000x1 S50000 [] [0] [0] 1
  scatter_S64x128_S50000x1_S50000x128_1_0_0_1_wf : ScatterDims.WF S64x128 S50000x1 S50000x128 [1] [0] [0] 1
  dot_S64x128_S128x10_S64x10_1_0_0_1_n_n_wf : DotDims.WF S64x128 S128x10 S64x10 [1] [0] [0] [1] [] []

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.Spec.lean ====
/-
  The graph network both programs compute, as one function of the argument arrays.

  From the edge list `e` (two rows of E = 600000 node numbers) the source and destination lists are its rows, each
  followed by the N = 50000 self-loops 0 … N-1. The degree of a node is the number of list entries whose
  destination it is; `dinv` is its inverse square root where the degree is positive and 0 elsewhere; an entry's
  weight `norm` is the product of `dinv` at its two ends. One layer sends a node table `h` to `MM h W` (the
  node-by-node product with the layer's square matrix), gathers the rows at the sources, scales them by the weights,
  adds them up at the destinations and adds the bias. Three layers follow each other, the first two clamped below at
  zero; the result is averaged over each of the 64 groups `batch` names (the count clamped below at 1) and sent
  through one more matrix product and bias.

  The layer's product `MM` is a PARAMETER: the reference takes the plain product of the [50000, 128] table, the
  kernel pads the table with zero rows to [50176, 128], multiplies 32 blocks of 1568 rows and cuts the first 50000
  rows out again. Every other operation is the same in both programs, so the two results are `out` at two
  products, and they agree as soon as the products do.
-/
import proofs.«400497_j7060926234753_4_alg».proof.KernelIdeal
import Idealize.ShloMosaic.PureOps.Ideal
import Idealize.ShloMosaic.Lib.ValueIdx

noncomputable section

namespace Cert.Gcn

open Idealize.ShloMosaic Idealize.ShloMosaic.TcCoe Cert.KernelIdeal Cert.KernelIdeal.Facts₀

variable {F : FTy → Type} [FloatOps F]
-- the shape relations the operations cite are the kernel program's stated side conditions
variable [Cert.KernelIdeal.Facts]

/-- Row `0` of the edge list (the sources), then the self-loops. -/
def src (e : Vec F S2x600000 .i32) : Vec F S650000 .i32 :=
  concatenate S650000 0 [⟨S600000, shapeCast S600000 (extractStridedSlice S1x600000 ![0, 0] e slices_S2x600000_S1x600000_0_0) shapeCasts_S1x600000_S600000⟩, ⟨S50000, iotaInDim S50000 32 0⟩] concatenates_S600000_S50000_S650000_d0

/-- Row `1` of the edge list (the destinations), then the self-loops. -/
def dst (e : Vec F S2x600000 .i32) : Vec F S650000 .i32 :=
  concatenate S650000 0 [⟨S600000, shapeCast S600000 (extractStridedSlice S1x600000 ![1, 0] e slices_S2x600000_S1x600000_1_0) shapeCasts_S1x600000_S600000⟩, ⟨S50000, iotaInDim S50000 32 0⟩] concatenates_S600000_S50000_S650000_d0

/-- A node list as gather indices: a negative number counts from the end (N is added to it). -/
def wrap (s : Vec F S650000 .i32) : Vec F S650000x1 .i32 :=
  broadcastInDim S650000x1 ![0] bcast_S650000_S650000x1_0
    (select (cmpi .slt s (broadcastInDim S650000 ![] bcast_S_S650000 (constantI S_ 32 0#32)))
      (addi s (broadcastInDim S650000 ![] bcast_S_S650000 (constantI S_ 32 50000#32))) s)

/-- The degree of every node: one for each list entry it is the destination of. -/
def deg (d : Vec F S650000 .i32) : FVec F S50000 .f32 :=
  Host.scatterAdd scatter_S50000_S650000x1_S650000_n_0_0_1
    (broadcastInDim S50000 ![] bcast_S_S50000 (constant S_ .f32 0x00000000#32))
    (broadcastInDim S650000x1 ![0] bcast_S650000_S650000x1_0 d)
    (broadcastInDim S650000 ![] bcast_S_S650000 (constant S_ .f32 0x3F800000#32))

/-- The inverse square root of the degree where it is positive, zero elsewhere. -/
def dinv (d : Vec F S650000 .i32) : FVec F S50000 .f32 :=
  select (cmpf .ogt (deg d) (broadcastInDim S50000 ![] bcast_S_S50000 (constant S_ .f32 0x00000000#32)))
    (Host.rsqrt (deg d))
    (broadcastInDim S50000 ![] bcast_S_S50000 (id (constant S_ .f32 0x00000000#32)))

/-- The weight of every list entry: `dinv` at its source times `dinv` at its destination. -/
def norm (s d : Vec F S650000 .i32) : FVec F S650000 .f32 :=
  mulf (Host.gather gather_S50000_S650000x1_S650000_n_0_n_n_0_1_1 (dinv d) (wrap s))
    (Host.gather gather_S50000_S650000x1_S650000_n_0_n_n_0_1_1 (dinv d) (wrap d))

/-- The aggregation of one layer: the transformed rows gathered at the sources, weighted, summed at the
    destinations, plus the bias. -/
def agg (ht : FVec F S50000x128 .f32) (s d : Vec F S650000 .i32) (n : FVec F S650000 .f32) (b : FVec F S128 .f32) :
    FVec F S50000x128 .f32 :=
  addf
    (Host.scatterAdd scatter_S50000x128_S650000x1_S650000x128_1_0_0_1
      (broadcastInDim S50000x128 ![] bcast_S_S50000x128 (constant S_ .f32 0x00000000#32))
      (broadcastInDim S650000x1 ![0] bcast_S650000_S650000x1_0 d)
      (mulf (Host.gather gather_S50000x128_S650000x1_S650000x128_1_0_n_n_0_1_1128 ht (wrap s))
        (broadcastInDim S650000x128 ![0, 1] bcast_S650000x1_S650000x128_0_1
          (broadcastInDim S650000x1 ![0] bcast_S650000_S650000x1_0 n))))
    (broadcastInDim S50000x128 ![0, 1] bcast_S1x128_S50000x128_0_1 (broadcastInDim S1x128 ![1] bcast_S128_S1x128_1 b))

/-- Clamping below at zero. -/
def relu (x : FVec F S50000x128 .f32) : FVec F S50000x128 .f32 :=
  maximumf x (broadcastInDim S50000x128 ![] bcast_S_S50000x128 (constant S_ .f32 0x00000000#32))

/-- The node table written into the first 50000 rows of a [50176, 128] table of zeros. -/
def pad (h : FVec F S50000x128 .f32) : FVec F S50176x128 .f32 :=
  Host.scatter scatter_S50176x128_S1_S50000x128_01_n_0_0 (fun _ b => b)
    (broadcastInDim S50176x128 ![] bcast_S_S50176x128 (constant S_ .f32 0x00000000#32))
    (broadcastInDim S1 ![] bcast_S_S1 (constantI S_ 32 0#32)) h

/-- The first 50000 rows of a [50176, 128] table. -/
def unpad (y : FVec F S50176x128 .f32) : FVec F S50000x128 .f32 :=
  extractStridedSlice S50000x128 ![0, 0] y slices_S50176x128_S50000x128_0_0

/-- The mean of the node rows over each group, then the last matrix product and bias. -/
def pool (h : FVec F S50000x128 .f32) (batch : Vec F S50000 .i32) (Wl : FVec F S128x10 .f32) (bl : FVec F S10 .f32) :
    FVec F S64x10 .f32 :=
  addf
    (Host.dotGeneral dot_S64x128_S128x10_S64x10_1_0_0_1_n_n none
      (Host.divf
        (Host.scatterAdd scatter_S64x128_S50000x1_S50000x128_1_0_0_1
          (broadcastInDim S64x128 ![] bcast_S_S64x128 (constant S_ .f32 0x00000000#32))
          (broadcastInDim S50000x1 ![0] bcast_S50000_S50000x1_0 batch) h)
        (broadcastInDim S64x128 ![0, 1] bcast_S64x1_S64x128_0_1
          (broadcastInDim S64x1 ![0] bcast_S64_S64x1_0
            (maximumf
              (Host.scatterAdd scatter_S64_S50000x1_S50000_n_0_0_1
                (broadcastInDim S64 ![] bcast_S_S64 (constant S_ .f32 0x00000000#32))
                (broadcastInDim S50000x1 ![0] bcast_S50000_S50000x1_0 batch)
                (broadcastInDim S50000 ![] bcast_S_S50000 (constant S_ .f32 0x3F800000#32)))
              (broadcastInDim S64 ![] bcast_S_S64 (constant S_ .f32 0x3F800000#32))))))
      Wl)
    (broadcastInDim S64x10 ![0, 1] bcast_S1x10_S64x10_0_1 (broadcastInDim S1x10 ![1] bcast_S10_S1x10_1 bl))

/-- THE NETWORK, at a layer product `MM`. -/
def out (MM : FVec F S50000x128 .f32 → FVec F S128x128 .f32 → FVec F S50000x128 .f32)
    (x : FVec F S50000x128 .f32) (e : Vec F S2x600000 .i32) (batch : Vec F S50000 .i32)
    (W1 : FVec F S128x128 .f32) (b1 : FVec F S128 .f32) (W2 : FVec F S128x128 .f32) (b2 : FVec F S128 .f32)
    (W3 : FVec F S128x128 .f32) (b3 : FVec F S128 .f32) (Wl : FVec F S128x10 .f32) (bl : FVec F S10 .f32) :
    FVec F S64x10 .f32 :=
  pool
    (agg (MM (relu (agg (MM (relu (agg (MM x W1) (src e) (dst e) (norm (src e) (dst e)) b1)) W2)
      (src e) (dst e) (norm (src e) (dst e)) b2)) W3) (src e) (dst e) (norm (src e) (dst e)) b3)
    batch Wl bl

/-- The padded table times a square matrix over the extended reals, entry by entry: row `i 0` of the table against
    column `i 1` of the matrix. What each of the three kernel regions leaves in its output array. -/
def rowsTimes (x : FVec Ideal S50176x128 .f32) (w : FVec Ideal S128x128 .f32) : FVec Ideal S50176x128 .f32 :=
  fun i => ∑ k : Fin 128, x (ValueIdx.ix2 (i 0) k) * w (ValueIdx.ix2 k (i 1))

/-- The kernel's layer product: pad, multiply, cut. -/
def mmK (h : FVec Ideal S50000x128 .f32) (w : FVec Ideal S128x128 .f32) : FVec Ideal S50000x128 .f32 :=
  unpad (rowsTimes (pad h) w)

end Cert.Gcn

end
-- ==== Proof.BlockRows0.lean ====
/-
  Region 0 of the kernel: what its output array holds once all 32 grid points have written back.
  Point `t` multiplies rows [1568 t, 1568 t + 1568) of the padded table by the whole square matrix, so every
  entry of the output array is its row of the table against its column of the matrix.
-/
import proofs.«400497_j7060926234753_4_alg».proof.Proof.Gen.KernelIdeal.Frame
import proofs.«400497_j7060926234753_4_alg».proof.Proof.Spec
import Idealize.ShloMosaic.Lib.Pipeline.Value
import Idealize.ShloMosaic.Lib.ValueIdx
import Idealize.ShloMosaic.PureOps.Ideal.Laws

set_option maxRecDepth 16384

noncomputable section

namespace Cert.Gcn.Region0

open Idealize.ShloMosaic Idealize.ShloMosaic.TcCoe Idealize.SL.Sem
open Cert.KernelIdeal Cert.KernelIdeal.Gen Cert.Gcn
open Idealize.ShloMosaic.ValueIdx

variable (V : (c : Dev nD) → (b : Ref sig .tc) → Buf (Elt Ideal) ((c : Thread nD τ).loc b))

/-! ## The block product at an entry -/

/-- The left operand's row is the output's row. -/
theorem lhs_row (i : S1568x128.Idx) (q : dot_S1568x128_S128x128_S1568x128_1_0_0_1_n_n.contr.Idx) :
    (dot_S1568x128_S128x128_S1568x128_1_0_0_1_n_n.lhsIdx i q 0).val = (i 0).val := by
  unfold DotDims.lhsIdx
  rw [dif_neg (show ¬(0 : Fin S1568x128.rank) ∈ dot_S1568x128_S128x128_S1568x128_1_0_0_1_n_n.lhsBatch by decide), dif_pos (show (0 : Fin S1568x128.rank) ∈ dot_S1568x128_S128x128_S1568x128_1_0_0_1_n_n.lhsNonContracting by decide)]
  rfl

/-- The left operand's column is the summation index. -/
theorem lhs_inner (i : S1568x128.Idx) (q : dot_S1568x128_S128x128_S1568x128_1_0_0_1_n_n.contr.Idx) :
    (dot_S1568x128_S128x128_S1568x128_1_0_0_1_n_n.lhsIdx i q 1).val = (q ⟨0, by decide⟩).val :=
  dot_S1568x128_S128x128_S1568x128_1_0_0_1_n_n.lhsIdx_val_of_single rfl i q

/-- The right operand's row is the summation index. -/
theorem rhs_inner (i : S1568x128.Idx) (q : dot_S1568x128_S128x128_S1568x128_1_0_0_1_n_n.contr.Idx) :
    (dot_S1568x128_S128x128_S1568x128_1_0_0_1_n_n.rhsIdx i q 0).val = (q ⟨0, by decide⟩).val :=
  dot_S1568x128_S128x128_S1568x128_1_0_0_1_n_n.rhsIdx_val_of_single rfl i q

/-- The right operand's column is the output's column. -/
theorem rhs_col (i : S1568x128.Idx) (q : dot_S1568x128_S128x128_S1568x128_1_0_0_1_n_n.contr.Idx) :
    (dot_S1568x128_S128x128_S1568x128_1_0_0_1_n_n.rhsIdx i q 1).val = (i 1).val := by
  unfold DotDims.rhsIdx
  rw [dif_neg (show ¬(1 : Fin S128x128.rank) ∈ dot_S1568x128_S128x128_S1568x128_1_0_0_1_n_n.rhsBatch by decide), dif_pos (show (1 : Fin S128x128.rank) ∈ dot_S1568x128_S128x128_S1568x128_1_0_0_1_n_n.rhsNonContracting by decide)]
  rfl

/-- The body's result at entry (p, q) of its block: row p of the table block against column q of the matrix, summed
    over the 128 inner positions (the accumulator starts at zero). -/
theorem pay_apply (xt : Vec Ideal S1568x128 .f32) (xm : Vec Ideal S128x128 .f32) (p : Fin 1568) (q : Fin 128) :
    k0_pay1 xt xm (ix2 p q) = ∑ k : Fin 128, xt (ix2 p k) * xm (ix2 k q) := by
  unfold k0_pay1
  simp only [matmul]
  rw [shapeCast_self]
  rw [Ideal.matmul_constant_zero_apply, ← Equiv.sum_comp (ValueIdx.contrEquiv1 dot_S1568x128_S128x128_S1568x128_1_0_0_1_n_n 128 rfl rfl).symm]
  refine Finset.sum_congr rfl fun k _ => ?_
  have hk := ValueIdx.contrEquiv1_symm_val dot_S1568x128_S128x128_S1568x128_1_0_0_1_n_n 128 rfl rfl k
  have el : dot_S1568x128_S128x128_S1568x128_1_0_0_1_n_n.lhsIdx (ix2 p q) ((ValueIdx.contrEquiv1 dot_S1568x128_S128x128_S1568x128_1_0_0_1_n_n 128 rfl rfl).symm k) = ix2 p k := funext fun a => Fin.ext (by
    match a with
    | ⟨0, _⟩ => exact lhs_row _ _
    | ⟨1, _⟩ => exact (lhs_inner _ _).trans hk)
  have er : dot_S1568x128_S128x128_S1568x128_1_0_0_1_n_n.rhsIdx (ix2 p q) ((ValueIdx.contrEquiv1 dot_S1568x128_S128x128_S1568x128_1_0_0_1_n_n 128 rfl rfl).symm k) = ix2 k q := funext fun a => Fin.ext (by
    match a with
    | ⟨0, _⟩ => exact (rhs_inner _ _).trans hk
    | ⟨1, _⟩ => exact rhs_col _ _)
  rw [el, er]

/-! ## From the blocks to the array -/

/-- The body's accesses start at the block's corner. -/
theorem corner : (![0, 0] : Fin 2 → Nat) = fun _ => 0 :=
  funext fun a => by match a with | ⟨0, _⟩ => rfl | ⟨1, _⟩ => rfl

/-- The three index maps over the grid: the table's and the output's block at point t is block (t, 0), the matrix's
    is always block (0, 0). -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- An entry of the block product is an entry of `rowsTimes` as soon as the table block's row is the array's row
    and the matrix block's column is the array's column. -/
theorem block_entry (xt : Vec Ideal S1568x128 .f32) (xm : Vec Ideal S128x128 .f32)
    (A : FVec Ideal S50176x128 .f32) (B : FVec Ideal S128x128 .f32) (i : S50176x128.Idx) (p : Fin 1568) (q : Fin 128)
    (hrow : ∀ k : Fin 128, xt (ix2 p k) = A (ix2 (i 0) k)) (hcol : ∀ k : Fin 128, xm (ix2 k q) = B (ix2 k (i 1))) :
    k0_pay1 xt xm (ix2 p q) = rowsTimes A B i := by
  rw [pay_apply]
  unfold rowsTimes
  exact Finset.sum_congr rfl fun k _ => by rw [hrow k, hcol k]

/-- What point t writes back is block t of `rowsTimes` of the two arrays as the region finds them. -/
theorem flushed_eq (c : Dev nD) (t : Fin cfg0.N) :
    (dat0 (F := Ideal) V c).flushed 2 t
      = ((cfg0.win 2).blk t).view.read (Elt Ideal) (rowsTimes (V c main_v32) (V c main_arg3)) := by
  show (cfg0.win 2).cut (grid0.coords t) ((dat0 V c).after 2 t) = _
  rw [after0_2]
  unfold out0_2
  rw [View.canon_unit_zero corner]
  simp only [View.ld_unit_zero (S := S1568x128) corner, View.ld_unit_zero (S := S128x128) corner]
  obtain ⟨ta, tb, ma, mb, oa, ob⟩ := block_index t
  funext j
  obtain ⟨p, q, rfl⟩ : ∃ (p : Fin 1568) (q : Fin 128), j = ix2 p q := ⟨j 0, j 1, eq_ix2 j⟩
  show k0_pay1 (iblk0 V c 0 t) (iblk0 V c 1 t) (ix2 p q)
      = rowsTimes (V c main_v32) (V c main_arg3) (((cfg0.win 2).blk t).view.emb (ix2 p q))
  refine block_entry _ _ _ _ _ p q (fun k => ?_) (fun k => ?_)
  · -- the table block's row p is row 1568 t + p of the table
    show V c main_v32 (((cfg0.win 0).blk t).view.emb (ix2 p k)) = V c main_v32 _
    refine congrArg _ (funext fun a => Fin.ext ?_)
    match a with
    | ⟨0, _⟩ => show win0_0.index t (0 : Fin 2) * 1568 + 1 * p.val = win0_2.index t (0 : Fin 2) * 1568 + 1 * p.val; omega
    | ⟨1, _⟩ => show win0_0.index t (1 : Fin 2) * 128 + 1 * k.val = k.val; omega
  · -- the matrix block is the whole matrix
    show V c main_arg3 (((cfg0.win 1).blk t).view.emb (ix2 k q)) = V c main_arg3 _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega

/-- An entry of the output array is in point t's block iff each coordinate is in the block's range on its axis. -/
theorem mem_blk (t : Fin cfg0.N) (i : S50176x128.Idx) :
    i ∈ ((cfg0.win 2).blk t).view.set ↔ ∀ a : Fin 2, win0_2.index t a * S1568x128.size a ≤ (i a).val ∧ (i a).val < win0_2.index t a * S1568x128.size a + S1568x128.size a := by
  show i ∈ ((View.whole main_v33).slice (win0_2.rect t)).set ↔ _
  rw [View.set_slice_whole, Rect.mem_set_unit]
  exact Iff.rfl

/-- Every entry of the output array is written: row r lies in the block of point r / 1568 (32 blocks of 1568 rows
    are the 50176 rows), and every block is all 128 columns wide. -/
theorem covered (i : S50176x128.Idx) :
    ∃ t : Fin cfg0.N, (cfg0.win 2).flush t = true ∧ i ∈ ((cfg0.win 2).blk t).view.set := by
  have hr : (i 0).val < 50176 := (i 0).isLt
  have hc : (i 1).val < 128 := (i 1).isLt
  have ht : (i 0).val / 1568 < cfg0.N := by show (i 0).val / 1568 < 32; omega
  obtain ⟨-, -, -, -, oa, ob⟩ := block_index ⟨(i 0).val / 1568, ht⟩
  refine ⟨⟨(i 0).val / 1568, ht⟩, flush0_2 _, ?_⟩
  rw [mem_blk]
  intro a
  match a with
  | ⟨0, _⟩ =>
    show win0_2.index ⟨(i 0).val / 1568, ht⟩ (0 : Fin 2) * 1568 ≤ (i 0).val ∧ (i 0).val < win0_2.index ⟨(i 0).val / 1568, ht⟩ (0 : Fin 2) * 1568 + 1568
    rw [oa]; show (i 0).val / 1568 * 1568 ≤ (i 0).val ∧ (i 0).val < (i 0).val / 1568 * 1568 + 1568; omega
  | ⟨1, _⟩ =>
    show win0_2.index ⟨(i 0).val / 1568, ht⟩ (1 : Fin 2) * 128 ≤ (i 1).val ∧ (i 1).val < win0_2.index ⟨(i 0).val / 1568, ht⟩ (1 : Fin 2) * 128 + 128
    rw [ob]; omega

/-- The output array of region 0 after the run, from the region's entry contents `V`: the padded table (window 0's
    array) times the square matrix (window 1's array), entry by entry. -/
theorem final (c : Dev nD) :
    (dat0 (F := Ideal) V c).arrAt 2 cfg0.N = rowsTimes (V c main_v32) (V c main_arg3) := by
  exact (dat0 (F := Ideal) V c).arrAt_eq_of_cover 2 (rowsTimes (V c main_v32) (V c main_arg3))
    (fun t _ => flushed_eq V c t) covered

end Cert.Gcn.Region0

end
-- ==== Proof.BlockRows1.lean ====
/-
  Region 1 of the kernel: what its output array holds once all 32 grid points have written back.
  Point `t` multiplies rows [1568 t, 1568 t + 1568) of the padded table by the whole square matrix, so every
  entry of the output array is its row of the table against its column of the matrix.
-/
import proofs.«400497_j7060926234753_4_alg».proof.Proof.Gen.KernelIdeal.Frame
import proofs.«400497_j7060926234753_4_alg».proof.Proof.Spec
import Idealize.ShloMosaic.Lib.Pipeline.Value
import Idealize.ShloMosaic.Lib.ValueIdx
import Idealize.ShloMosaic.PureOps.Ideal.Laws

set_option maxRecDepth 16384

noncomputable section

namespace Cert.Gcn.Region1

open Idealize.ShloMosaic Idealize.ShloMosaic.TcCoe Idealize.SL.Sem
open Cert.KernelIdeal Cert.KernelIdeal.Gen Cert.Gcn
open Idealize.ShloMosaic.ValueIdx

variable (V : (c : Dev nD) → (b : Ref sig .tc) → Buf (Elt Ideal) ((c : Thread nD τ).loc b))

/-! ## The block product at an entry -/

/-- The left operand's row is the output's row. -/
theorem lhs_row (i : S1568x128.Idx) (q : dot_S1568x128_S128x128_S1568x128_1_0_0_1_n_n.contr.Idx) :
    (dot_S1568x128_S128x128_S1568x128_1_0_0_1_n_n.lhsIdx i q 0).val = (i 0).val := by
  unfold DotDims.lhsIdx
  rw [dif_neg (show ¬(0 : Fin S1568x128.rank) ∈ dot_S1568x128_S128x128_S1568x128_1_0_0_1_n_n.lhsBatch by decide), dif_pos (show (0 : Fin S1568x128.rank) ∈ dot_S1568x128_S128x128_S1568x128_1_0_0_1_n_n.lhsNonContracting by decide)]
  rfl

/-- The left operand's column is the summation index. -/
theorem lhs_inner (i : S1568x128.Idx) (q : dot_S1568x128_S128x128_S1568x128_1_0_0_1_n_n.contr.Idx) :
    (dot_S1568x128_S128x128_S1568x128_1_0_0_1_n_n.lhsIdx i q 1).val = (q ⟨0, by decide⟩).val :=
  dot_S1568x128_S128x128_S1568x128_1_0_0_1_n_n.lhsIdx_val_of_single rfl i q

/-- The right operand's row is the summation index. -/
theorem rhs_inner (i : S1568x128.Idx) (q : dot_S1568x128_S128x128_S1568x128_1_0_0_1_n_n.contr.Idx) :
    (dot_S1568x128_S128x128_S1568x128_1_0_0_1_n_n.rhsIdx i q 0).val = (q ⟨0, by decide⟩).val :=
  dot_S1568x128_S128x128_S1568x128_1_0_0_1_n_n.rhsIdx_val_of_single rfl i q

/-- The right operand's column is the output's column. -/
theorem rhs_col (i : S1568x128.Idx) (q : dot_S1568x128_S128x128_S1568x128_1_0_0_1_n_n.contr.Idx) :
    (dot_S1568x128_S128x128_S1568x128_1_0_0_1_n_n.rhsIdx i q 1).val = (i 1).val := by
  unfold DotDims.rhsIdx
  rw [dif_neg (show ¬(1 : Fin S128x128.rank) ∈ dot_S1568x128_S128x128_S1568x128_1_0_0_1_n_n.rhsBatch by decide), dif_pos (show (1 : Fin S128x128.rank) ∈ dot_S1568x128_S128x128_S1568x128_1_0_0_1_n_n.rhsNonContracting by decide)]
  rfl

/-- The body's result at entry (p, q) of its block: row p of the table block against column q of the matrix, summed
    over the 128 inner positions (the accumulator starts at zero). -/
theorem pay_apply (xt : Vec Ideal S1568x128 .f32) (xm : Vec Ideal S128x128 .f32) (p : Fin 1568) (q : Fin 128) :
    k1_pay1 xt xm (ix2 p q) = ∑ k : Fin 128, xt (ix2 p k) * xm (ix2 k q) := by
  unfold k1_pay1
  simp only [matmul]
  rw [shapeCast_self]
  rw [Ideal.matmul_constant_zero_apply, ← Equiv.sum_comp (ValueIdx.contrEquiv1 dot_S1568x128_S128x128_S1568x128_1_0_0_1_n_n 128 rfl rfl).symm]
  refine Finset.sum_congr rfl fun k _ => ?_
  have hk := ValueIdx.contrEquiv1_symm_val dot_S1568x128_S128x128_S1568x128_1_0_0_1_n_n 128 rfl rfl k
  have el : dot_S1568x128_S128x128_S1568x128_1_0_0_1_n_n.lhsIdx (ix2 p q) ((ValueIdx.contrEquiv1 dot_S1568x128_S128x128_S1568x128_1_0_0_1_n_n 128 rfl rfl).symm k) = ix2 p k := funext fun a => Fin.ext (by
    match a with
    | ⟨0, _⟩ => exact lhs_row _ _
    | ⟨1, _⟩ => exact (lhs_inner _ _).trans hk)
  have er : dot_S1568x128_S128x128_S1568x128_1_0_0_1_n_n.rhsIdx (ix2 p q) ((ValueIdx.contrEquiv1 dot_S1568x128_S128x128_S1568x128_1_0_0_1_n_n 128 rfl rfl).symm k) = ix2 k q := funext fun a => Fin.ext (by
    match a with
    | ⟨0, _⟩ => exact (rhs_inner _ _).trans hk
    | ⟨1, _⟩ => exact rhs_col _ _)
  rw [el, er]

/-! ## From the blocks to the array -/

/-- The body's accesses start at the block's corner. -/
theorem corner : (![0, 0] : Fin 2 → Nat) = fun _ => 0 :=
  funext fun a => by match a with | ⟨0, _⟩ => rfl | ⟨1, _⟩ => rfl

/-- The three index maps over the grid: the table's and the output's block at point t is block (t, 0), the matrix's
    is always block (0, 0). -/
theorem block_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- An entry of the block product is an entry of `rowsTimes` as soon as the table block's row is the array's row
    and the matrix block's column is the array's column. -/
theorem block_entry (xt : Vec Ideal S1568x128 .f32) (xm : Vec Ideal S128x128 .f32)
    (A : FVec Ideal S50176x128 .f32) (B : FVec Ideal S128x128 .f32) (i : S50176x128.Idx) (p : Fin 1568) (q : Fin 128)
    (hrow : ∀ k : Fin 128, xt (ix2 p k) = A (ix2 (i 0) k)) (hcol : ∀ k : Fin 128, xm (ix2 k q) = B (ix2 k (i 1))) :
    k1_pay1 xt xm (ix2 p q) = rowsTimes A B i := by
  rw [pay_apply]
  unfold rowsTimes
  exact Finset.sum_congr rfl fun k _ => by rw [hrow k, hcol k]

/-- What point t writes back is block t of `rowsTimes` of the two arrays as the region finds them. -/
theorem flushed_eq (c : Dev nD) (t : Fin cfg1.N) :
    (dat1 (F := Ideal) V c).flushed 2 t
      = ((cfg1.win 2).blk t).view.read (Elt Ideal) (rowsTimes (V c main_v55) (V c main_arg5)) := by
  show (cfg1.win 2).cut (grid1.coords t) ((dat1 V c).after 2 t) = _
  rw [after1_2]
  unfold out1_2
  rw [View.canon_unit_zero corner]
  simp only [View.ld_unit_zero (S := S1568x128) corner, View.ld_unit_zero (S := S128x128) corner]
  obtain ⟨ta, tb, ma, mb, oa, ob⟩ := block_index t
  funext j
  obtain ⟨p, q, rfl⟩ : ∃ (p : Fin 1568) (q : Fin 128), j = ix2 p q := ⟨j 0, j 1, eq_ix2 j⟩
  show k1_pay1 (iblk1 V c 0 t) (iblk1 V c 1 t) (ix2 p q)
      = rowsTimes (V c main_v55) (V c main_arg5) (((cfg1.win 2).blk t).view.emb (ix2 p q))
  refine block_entry _ _ _ _ _ p q (fun k => ?_) (fun k => ?_)
  · -- the table block's row p is row 1568 t + p of the table
    show V c main_v55 (((cfg1.win 0).blk t).view.emb (ix2 p k)) = V c main_v55 _
    refine congrArg _ (funext fun a => Fin.ext ?_)
    match a with
    | ⟨0, _⟩ => show win1_0.index t (0 : Fin 2) * 1568 + 1 * p.val = win1_2.index t (0 : Fin 2) * 1568 + 1 * p.val; omega
    | ⟨1, _⟩ => show win1_0.index t (1 : Fin 2) * 128 + 1 * k.val = k.val; omega
  · -- the matrix block is the whole matrix
    show V c main_arg5 (((cfg1.win 1).blk t).view.emb (ix2 k q)) = V c main_arg5 _
    refine congrArg _ (funext fun a => Fin.ext ?_)
    match a with
    | ⟨0, _⟩ => show win1_1.index t (0 : Fin 2) * 128 + 1 * k.val = k.val; omega
    | ⟨1, _⟩ => show win1_1.index t (1 : Fin 2) * 128 + 1 * q.val = win1_2.index t (1 : Fin 2) * 128 + 1 * q.val; omega

/-- An entry of the output array is in point t's block iff each coordinate is in the block's range on its axis. -/
theorem mem_blk (t : Fin cfg1.N) (i : S50176x128.Idx) :
    i ∈ ((cfg1.win 2).blk t).view.set ↔ ∀ a : Fin 2, win1_2.index t a * S1568x128.size a ≤ (i a).val ∧ (i a).val < win1_2.index t a * S1568x128.size a + S1568x128.size a := by
  show i ∈ ((View.whole main_v56).slice (win1_2.rect t)).set ↔ _
  rw [View.set_slice_whole, Rect.mem_set_unit]
  exact Iff.rfl

/-- Every entry of the output array is written: row r lies in the block of point r / 1568 (32 blocks of 1568 rows
    are the 50176 rows), and every block is all 128 columns wide. -/
theorem covered (i : S50176x128.Idx) :
    ∃ t : Fin cfg1.N, (cfg1.win 2).flush t = true ∧ i ∈ ((cfg1.win 2).blk t).view.set := by
  have hr : (i 0).val < 50176 := (i 0).isLt
  have hc : (i 1).val < 128 := (i 1).isLt
  have ht : (i 0).val / 1568 < cfg1.N := by show (i 0).val / 1568 < 32; omega
  obtain ⟨-, -, -, -, oa, ob⟩ := block_index ⟨(i 0).val / 1568, ht⟩
  refine ⟨⟨(i 0).val / 1568, ht⟩, flush1_2 _, ?_⟩
  rw [mem_blk]
  intro a
  match a with
  | ⟨0, _⟩ =>
    show win1_2.index ⟨(i 0).val / 1568, ht⟩ (0 : Fin 2) * 1568 ≤ (i 0).val ∧ (i 0).val < win1_2.index ⟨(i 0).val / 1568, ht⟩ (0 : Fin 2) * 1568 + 1568
    rw [oa]; show (i 0).val / 1568 * 1568 ≤ (i 0).val ∧ (i 0).val < (i 0).val / 1568 * 1568 + 1568; omega
  | ⟨1, _⟩ =>
    show win1_2.index ⟨(i 0).val / 1568, ht⟩ (1 : Fin 2) * 128 ≤ (i 1).val ∧ (i 1).val < win1_2.index ⟨(i 0).val / 1568, ht⟩ (1 : Fin 2) * 128 + 128
    rw [ob]; omega

/-- The output array of region 1 after the run, from the region's entry contents `V`: the padded table (window 0's
    array) times the square matrix (window 1's array), entry by entry. -/
theorem final (c : Dev nD) :
    (dat1 (F := Ideal) V c).arrAt 2 cfg1.N = rowsTimes (V c main_v55) (V c main_arg5) := by
  exact (dat1 (F := Ideal) V c).arrAt_eq_of_cover 2 (rowsTimes (V c main_v55) (V c main_arg5))
    (fun t _ => flushed_eq V c t) covered

end Cert.Gcn.Region1

end
-- ==== Proof.BlockRows2.lean ====
/-
  Region 2 of the kernel: what its output array holds once all 32 grid points have written back.
  Point `t` multiplies rows [1568 t, 1568 t + 1568) of the padded table by the whole square matrix, so every
  entry of the output array is its row of the table against its column of the matrix.
-/
import proofs.«400497_j7060926234753_4_alg».proof.Proof.Gen.KernelIdeal.Frame
import proofs.«400497_j7060926234753_4_alg».proof.Proof.Spec
import Idealize.ShloMosaic.Lib.Pipeline.Value
import Idealize.ShloMosaic.Lib.ValueIdx
import Idealize.ShloMosaic.PureOps.Ideal.Laws

set_option maxRecDepth 16384

noncomputable section

namespace Cert.Gcn.Region2

open Idealize.ShloMosaic Idealize.ShloMosaic.TcCoe Idealize.SL.Sem
open Cert.KernelIdeal Cert.KernelIdeal.Gen Cert.Gcn
open Idealize.ShloMosaic.ValueIdx

variable (V : (c : Dev nD) → (b : Ref sig .tc) → Buf (Elt Ideal) ((c : Thread nD τ).loc b))

/-! ## The block product at an entry -/

/-- The left operand's row is the output's row. -/
theorem lhs_row (i : S1568x128.Idx) (q : dot_S1568x128_S128x128_S1568x128_1_0_0_1_n_n.contr.Idx) :
    (dot_S1568x128_S128x128_S1568x128_1_0_0_1_n_n.lhsIdx i q 0).val = (i 0).val := by
  unfold DotDims.lhsIdx
  rw [dif_neg (show ¬(0 : Fin S1568x128.rank) ∈ dot_S1568x128_S128x128_S1568x128_1_0_0_1_n_n.lhsBatch by decide), dif_pos (show (0 : Fin S1568x128.rank) ∈ dot_S1568x128_S128x128_S1568x128_1_0_0_1_n_n.lhsNonContracting by decide)]
  rfl

/-- The left operand's column is the summation index. -/
theorem lhs_inner (i : S1568x128.Idx) (q : dot_S1568x128_S128x128_S1568x128_1_0_0_1_n_n.contr.Idx) :
    (dot_S1568x128_S128x128_S1568x128_1_0_0_1_n_n.lhsIdx i q 1).val = (q ⟨0, by decide⟩).val :=
  dot_S1568x128_S128x128_S1568x128_1_0_0_1_n_n.lhsIdx_val_of_single rfl i q

/-- The right operand's row is the summation index. -/
theorem rhs_inner (i : S1568x128.Idx) (q : dot_S1568x128_S128x128_S1568x128_1_0_0_1_n_n.contr.Idx) :
    (dot_S1568x128_S128x128_S1568x128_1_0_0_1_n_n.rhsIdx i q 0).val = (q ⟨0, by decide⟩).val :=
  dot_S1568x128_S128x128_S1568x128_1_0_0_1_n_n.rhsIdx_val_of_single rfl i q

/-- The right operand's column is the output's column. -/
theorem rhs_col (i : S1568x128.Idx) (q : dot_S1568x128_S128x128_S1568x128_1_0_0_1_n_n.contr.Idx) :
    (dot_S1568x128_S128x128_S1568x128_1_0_0_1_n_n.rhsIdx i q 1).val = (i 1).val := by
  unfold DotDims.rhsIdx
  rw [dif_neg (show ¬(1 : Fin S128x128.rank) ∈ dot_S1568x128_S128x128_S1568x128_1_0_0_1_n_n.rhsBatch by decide), dif_pos (show (1 : Fin S128x128.rank) ∈ dot_S1568x128_S128x128_S1568x128_1_0_0_1_n_n.rhsNonContracting by decide)]
  rfl

/-- The body's result at entry (p, q) of its block: row p of the table block against column q of the matrix, summed
    over the 128 inner positions (the accumulator starts at zero). -/
theorem pay_apply (xt : Vec Ideal S1568x128 .f32) (xm : Vec Ideal S128x128 .f32) (p : Fin 1568) (q : Fin 128) :
    k2_pay1 xt xm (ix2 p q) = ∑ k : Fin 128, xt (ix2 p k) * xm (ix2 k q) := by
  unfold k2_pay1
  simp only [matmul]
  rw [shapeCast_self]
  rw [Ideal.matmul_constant_zero_apply, ← Equiv.sum_comp (ValueIdx.contrEquiv1 dot_S1568x128_S128x128_S1568x128_1_0_0_1_n_n 128 rfl rfl).symm]
  refine Finset.sum_congr rfl fun k _ => ?_
  have hk := ValueIdx.contrEquiv1_symm_val dot_S1568x128_S128x128_S1568x128_1_0_0_1_n_n 128 rfl rfl k
  have el : dot_S1568x128_S128x128_S1568x128_1_0_0_1_n_n.lhsIdx (ix2 p q) ((ValueIdx.contrEquiv1 dot_S1568x128_S128x128_S1568x128_1_0_0_1_n_n 128 rfl rfl).symm k) = ix2 p k := funext fun a => Fin.ext (by
    match a with
    | ⟨0, _⟩ => exact lhs_row _ _
    | ⟨1, _⟩ => exact (lhs_inner _ _).trans hk)
  have er : dot_S1568x128_S128x128_S1568x128_1_0_0_1_n_n.rhsIdx (ix2 p q) ((ValueIdx.contrEquiv1 dot_S1568x128_S128x128_S1568x128_1_0_0_1_n_n 128 rfl rfl).symm k) = ix2 k q := funext fun a => Fin.ext (by
    match a with
    | ⟨0, _⟩ => exact (rhs_inner _ _).trans hk
    | ⟨1, _⟩ => exact rhs_col _ _)
  rw [el, er]

/-! ## From the blocks to the array -/

/-- The body's accesses start at the block's corner. -/
theorem corner : (![0, 0] : Fin 2 → Nat) = fun _ => 0 :=
  funext fun a => by match a with | ⟨0, _⟩ => rfl | ⟨1, _⟩ => rfl

/-- The three index maps over the grid: the table's and the output's block at point t is block (t, 0), the matrix's
    is always block (0, 0). -/
theorem block_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- An entry of the block product is an entry of `rowsTimes` as soon as the table block's row is the array's row
    and the matrix block's column is the array's column. -/
theorem block_entry (xt : Vec Ideal S1568x128 .f32) (xm : Vec Ideal S128x128 .f32)
    (A : FVec Ideal S50176x128 .f32) (B : FVec Ideal S128x128 .f32) (i : S50176x128.Idx) (p : Fin 1568) (q : Fin 128)
    (hrow : ∀ k : Fin 128, xt (ix2 p k) = A (ix2 (i 0) k)) (hcol : ∀ k : Fin 128, xm (ix2 k q) = B (ix2 k (i 1))) :
    k2_pay1 xt xm (ix2 p q) = rowsTimes A B i := by
  rw [pay_apply]
  unfold rowsTimes
  exact Finset.sum_congr rfl fun k _ => by rw [hrow k, hcol k]

/-- What point t writes back is block t of `rowsTimes` of the two arrays as the region finds them. -/
theorem flushed_eq (c : Dev nD) (t : Fin cfg2.N) :
    (dat2 (F := Ideal) V c).flushed 2 t
      = ((cfg2.win 2).blk t).view.read (Elt Ideal) (rowsTimes (V c main_v78) (V c main_arg7)) := by
  show (cfg2.win 2).cut (grid2.coords t) ((dat2 V c).after 2 t) = _
  rw [after2_2]
  unfold out2_2
  rw [View.canon_unit_zero corner]
  simp only [View.ld_unit_zero (S := S1568x128) corner, View.ld_unit_zero (S := S128x128) corner]
  obtain ⟨ta, tb, ma, mb, oa, ob⟩ := block_index t
  funext j
  obtain ⟨p, q, rfl⟩ : ∃ (p : Fin 1568) (q : Fin 128), j = ix2 p q := ⟨j 0, j 1, eq_ix2 j⟩
  show k2_pay1 (iblk2 V c 0 t) (iblk2 V c 1 t) (ix2 p q)
      = rowsTimes (V c main_v78) (V c main_arg7) (((cfg2.win 2).blk t).view.emb (ix2 p q))
  refine block_entry _ _ _ _ _ p q (fun k => ?_) (fun k => ?_)
  · -- the table block's row p is row 1568 t + p of the table
    show V c main_v78 (((cfg2.win 0).blk t).view.emb (ix2 p k)) = V c main_v78 _
    refine congrArg _ (funext fun a => Fin.ext ?_)
    match a with
    | ⟨0, _⟩ => show win2_0.index t (0 : Fin 2) * 1568 + 1 * p.val = win2_2.index t (0 : Fin 2) * 1568 + 1 * p.val; omega
    | ⟨1, _⟩ => show win2_0.index t (1 : Fin 2) * 128 + 1 * k.val = k.val; omega
  · -- the matrix block is the whole matrix
    show V c main_arg7 (((cfg2.win 1).blk t).view.emb (ix2 k q)) = V c main_arg7 _
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega

/-- An entry of the output array is in point t's block iff each coordinate is in the block's range on its axis. -/
theorem mem_blk (t : Fin cfg2.N) (i : S50176x128.Idx) :
    i ∈ ((cfg2.win 2).blk t).view.set ↔ ∀ a : Fin 2, win2_2.index t a * S1568x128.size a ≤ (i a).val ∧ (i a).val < win2_2.index t a * S1568x128.size a + S1568x128.size a := by
  show i ∈ ((View.whole main_v79).slice (win2_2.rect t)).set ↔ _
  rw [View.set_slice_whole, Rect.mem_set_unit]
  exact Iff.rfl

/-- Every entry of the output array is written: row r lies in the block of point r / 1568 (32 blocks of 1568 rows
    are the 50176 rows), and every block is all 128 columns wide. -/
theorem covered (i : S50176x128.Idx) :
    ∃ t : Fin cfg2.N, (cfg2.win 2).flush t = true ∧ i ∈ ((cfg2.win 2).blk t).view.set := by
  have hr : (i 0).val < 50176 := (i 0).isLt
  have hc : (i 1).val < 128 := (i 1).isLt
  have ht : (i 0).val / 1568 < cfg2.N := by show (i 0).val / 1568 < 32; omega
  obtain ⟨-, -, -, -, oa, ob⟩ := block_index ⟨(i 0).val / 1568, ht⟩
  refine ⟨⟨(i 0).val / 1568, ht⟩, flush2_2 _, ?_⟩
  rw [mem_blk]
  intro a
  match a with
  | ⟨0, _⟩ =>
    show win2_2.index ⟨(i 0).val / 1568, ht⟩ (0 : Fin 2) * 1568 ≤ (i 0).val ∧ (i 0).val < win2_2.index ⟨(i 0).val / 1568, ht⟩ (0 : Fin 2) * 1568 + 1568
    rw [oa]; show (i 0).val / 1568 * 1568 ≤ (i 0).val ∧ (i 0).val < (i 0).val / 1568 * 1568 + 1568; omega
  | ⟨1, _⟩ =>
    show win2_2.index ⟨(i 0).val / 1568, ht⟩ (1 : Fin 2) * 128 ≤ (i 1).val ∧ (i 1).val < win2_2.index ⟨(i 0).val / 1568, ht⟩ (1 : Fin 2) * 128 + 128
    rw [ob]; omega

/-- The output array of region 2 after the run, from the region's entry contents `V`: the padded table (window 0's
    array) times the square matrix (window 1's array), entry by entry. -/
theorem final (c : Dev nD) :
    (dat2 (F := Ideal) V c).arrAt 2 cfg2.N = rowsTimes (V c main_v78) (V c main_arg7) := by
  exact (dat2 (F := Ideal) V c).arrAt_eq_of_cover 2 (rowsTimes (V c main_v78) (V c main_arg7))
    (fun t _ => flushed_eq V c t) covered

end Cert.Gcn.Region2

end
-- ==== Proof.KernelValue.lean ====
/-
  What the kernel's result array holds, as the network of proof/Proof/Spec.lean at the kernel's layer product.

  The kernel's @main is six stretches of host operations around three regions. The contents of the TensorCore's
  buffers at each boundary are a fold from the launch memory. Walking that fold: the first stretches compute the source
  and destination lists, the weights and the padded node table from the arguments; each region leaves the padded table
  times its layer's matrix in its output array; each following stretch cuts the first 50000 rows out, aggregates, and
  (after the first two regions) clamps and pads again; the last stretch pools. Buffers a stretch or a region does not
  write keep their contents, which carries the lists, the weights and the arguments still to be read from boundary to
  boundary.
-/
import proofs.«400497_j7060926234753_4_alg».proof.Proof.Gen.KernelIdeal.Frame
import proofs.«400497_j7060926234753_4_alg».proof.Proof.Spec
import proofs.«400497_j7060926234753_4_alg».proof.Proof.BlockRows0
import proofs.«400497_j7060926234753_4_alg».proof.Proof.BlockRows1
import proofs.«400497_j7060926234753_4_alg».proof.Proof.BlockRows2
import Idealize.ShloMosaic.Lib.StableHlo.Run

set_option maxRecDepth 16384
-- reading a buffer back through a stretch of some thirty to forty-five operations is one long rewriting pass
set_option maxHeartbeats 4000000

noncomputable section

namespace Cert.Gcn.KernelValue

open Idealize.ShloMosaic Idealize.ShloMosaic.TcCoe Idealize.SL.Sem Idealize.ShloMosaic.StableHlo
open Cert.KernelIdeal Cert.KernelIdeal.Gen Cert.Gcn

section AnyFloats

variable {F : FTy → Type} [FloatOps F]
variable (m : (ℓ : Loc nD τ sig) → Buf (Elt F) ℓ) (ρ : Dev nD → PrngReg)

/-- A buffer's contents after a stretch of host operations from the contents `W`: each operation's result at its own
    buffer is its function of its operands' contents, and a buffer the stretch does not write keeps what it held. -/
local macro "host_read " ops:term ", " W:term : tactic =>
  `(tactic| (show StableHlo.after $ops $W _ = _; after_results_simp; try rfl))

/-- The same for the three stretches before the first region, from the launch memory. -/
local macro "first_read" : tactic =>
  `(tactic| (show StableHlo.after hostOps0_2 (StableHlo.after hostOps0_1 (StableHlo.after hostOps0 (W0 _ _ _))) _ = _
             after_results_simp; try rfl))

/-! ## What is carried from boundary to boundary -/

/-- At the boundary contents `W` of core `c`: the source list, the destination list and the weights are those of the
    edge-list argument, and the group list, the biases and the last layer's matrix and bias hold their launch contents.
    No region has one of these buffers as a window's array. -/
structure Kept (c : Dev nD) (W : Valuation τ sig (Elt F)) : Prop where
  src : W (Proc.devRef .tc main_v5) = src (m ((c : Thread nD τ).loc main_arg1))
  dst : W (Proc.devRef .tc main_v6) = dst (m ((c : Thread nD τ).loc main_arg1))
  norm : W (Proc.devRef .tc main_v29) = norm (Gcn.src (m ((c : Thread nD τ).loc main_arg1))) (Gcn.dst (m ((c : Thread nD τ).loc main_arg1)))
  a2 : W (Proc.devRef .tc main_arg2) = m ((c : Thread nD τ).loc main_arg2)
  a4 : W (Proc.devRef .tc main_arg4) = m ((c : Thread nD τ).loc main_arg4)
  a6 : W (Proc.devRef .tc main_arg6) = m ((c : Thread nD τ).loc main_arg6)
  a8 : W (Proc.devRef .tc main_arg8) = m ((c : Thread nD τ).loc main_arg8)
  a9 : W (Proc.devRef .tc main_arg9) = m ((c : Thread nD τ).loc main_arg9)
  a10 : W (Proc.devRef .tc main_arg10) = m ((c : Thread nD τ).loc main_arg10)

/-- At the first region's entry. -/
theorem kept_entry0 (c : Dev nD) : Kept m c (W3 m ρ c) where
  src := by first_read
  dst := by first_read
  norm := by first_read
  a2 := by first_read
  a4 := by first_read
  a6 := by first_read
  a8 := by first_read
  a9 := by first_read
  a10 := by first_read

/-- A region writes only its output array. -/
theorem kept_exit0 (c : Dev nD) (h : Kept m c (W3 m ρ c)) : Kept m c (W4 m ρ c) where
  src := (W4_of_ne m ρ c main_v5 (by decide)).trans h.src
  dst := (W4_of_ne m ρ c main_v6 (by decide)).trans h.dst
  norm := (W4_of_ne m ρ c main_v29 (by decide)).trans h.norm
  a2 := (W4_of_ne m ρ c main_arg2 (by decide)).trans h.a2
  a4 := (W4_of_ne m ρ c main_arg4 (by decide)).trans h.a4
  a6 := (W4_of_ne m ρ c main_arg6 (by decide)).trans h.a6
  a8 := (W4_of_ne m ρ c main_arg8 (by decide)).trans h.a8
  a9 := (W4_of_ne m ρ c main_arg9 (by decide)).trans h.a9
  a10 := (W4_of_ne m ρ c main_arg10 (by decide)).trans h.a10

/-- The stretch after the first region writes none of the carried buffers. -/
theorem kept_entry1 (c : Dev nD) (h : Kept m c (W4 m ρ c)) : Kept m c (W5 m ρ c) where
  src := Eq.trans (by host_read hostOps1, (W4 m ρ c)) h.src
  dst := Eq.trans (by host_read hostOps1, (W4 m ρ c)) h.dst
  norm := Eq.trans (by host_read hostOps1, (W4 m ρ c)) h.norm
  a2 := Eq.trans (by host_read hostOps1, (W4 m ρ c)) h.a2
  a4 := Eq.trans (by host_read hostOps1, (W4 m ρ c)) h.a4
  a6 := Eq.trans (by host_read hostOps1, (W4 m ρ c)) h.a6
  a8 := Eq.trans (by host_read hostOps1, (W4 m ρ c)) h.a8
  a9 := Eq.trans (by host_read hostOps1, (W4 m ρ c)) h.a9
  a10 := Eq.trans (by host_read hostOps1, (W4 m ρ c)) h.a10

theorem kept_exit1 (c : Dev nD) (h : Kept m c (W5 m ρ c)) : Kept m c (W6 m ρ c) where
  src := (W6_of_ne m ρ c main_v5 (by decide)).trans h.src
  dst := (W6_of_ne m ρ c main_v6 (by decide)).trans h.dst
  norm := (W6_of_ne m ρ c main_v29 (by decide)).trans h.norm
  a2 := (W6_of_ne m ρ c main_arg2 (by decide)).trans h.a2
  a4 := (W6_of_ne m ρ c main_arg4 (by decide)).trans h.a4
  a6 := (W6_of_ne m ρ c main_arg6 (by decide)).trans h.a6
  a8 := (W6_of_ne m ρ c main_arg8 (by decide)).trans h.a8
  a9 := (W6_of_ne m ρ c main_arg9 (by decide)).trans h.a9
  a10 := (W6_of_ne m ρ c main_arg10 (by decide)).trans h.a10

theorem kept_entry2 (c : Dev nD) (h : Kept m c (W6 m ρ c)) : Kept m c (W7 m ρ c) where
  src := Eq.trans (by host_read hostOps2, (W6 m ρ c)) h.src
  dst := Eq.trans (by host_read hostOps2, (W6 m ρ c)) h.dst
  norm := Eq.trans (by host_read hostOps2, (W6 m ρ c)) h.norm
  a2 := Eq.trans (by host_read hostOps2, (W6 m ρ c)) h.a2
  a4 := Eq.trans (by host_read hostOps2, (W6 m ρ c)) h.a4
  a6 := Eq.trans (by host_read hostOps2, (W6 m ρ c)) h.a6
  a8 := Eq.trans (by host_read hostOps2, (W6 m ρ c)) h.a8
  a9 := Eq.trans (by host_read hostOps2, (W6 m ρ c)) h.a9
  a10 := Eq.trans (by host_read hostOps2, (W6 m ρ c)) h.a10

theorem kept_exit2 (c : Dev nD) (h : Kept m c (W7 m ρ c)) : Kept m c (W8 m ρ c) where
  src := (W8_of_ne m ρ c main_v5 (by decide)).trans h.src
  dst := (W8_of_ne m ρ c main_v6 (by decide)).trans h.dst
  norm := (W8_of_ne m ρ c main_v29 (by decide)).trans h.norm
  a2 := (W8_of_ne m ρ c main_arg2 (by decide)).trans h.a2
  a4 := (W8_of_ne m ρ c main_arg4 (by decide)).trans h.a4
  a6 := (W8_of_ne m ρ c main_arg6 (by decide)).trans h.a6
  a8 := (W8_of_ne m ρ c main_arg8 (by decide)).trans h.a8
  a9 := (W8_of_ne m ρ c main_arg9 (by decide)).trans h.a9
  a10 := (W8_of_ne m ρ c main_arg10 (by decide)).trans h.a10

/-! ## The three layers' matrices at their regions' entries -/

theorem matrix0 (c : Dev nD) : W3 m ρ c (Proc.devRef .tc main_arg3) = m ((c : Thread nD τ).loc main_arg3) := by first_read

theorem matrix1 (c : Dev nD) : W5 m ρ c (Proc.devRef .tc main_arg5) = m ((c : Thread nD τ).loc main_arg5) :=
  Eq.trans (by host_read hostOps1, (W4 m ρ c)) (Eq.trans (W4_of_ne m ρ c main_arg5 (by decide)) (by first_read))

theorem matrix2 (c : Dev nD) : W7 m ρ c (Proc.devRef .tc main_arg7) = m ((c : Thread nD τ).loc main_arg7) :=
  Eq.trans (by host_read hostOps2, (W6 m ρ c)) (Eq.trans (W6_of_ne m ρ c main_arg7 (by decide))
    (Eq.trans (by host_read hostOps1, (W4 m ρ c)) (Eq.trans (W4_of_ne m ρ c main_arg7 (by decide)) (by first_read))))

/-! ## What each stretch computes -/

/-- Before the first region: the node-feature argument padded with zero rows. -/
theorem table0 (c : Dev nD) : W3 m ρ c (Proc.devRef .tc main_v32) = pad (m ((c : Thread nD τ).loc main_arg0)) := by first_read

/-- After the first region: its output cut, aggregated with the first bias, clamped, padded. -/
theorem table1 (c : Dev nD) :
    W5 m ρ c (Proc.devRef .tc main_v55)
      = pad (relu (agg (unpad (W4 m ρ c (Proc.devRef .tc main_v33))) (W4 m ρ c (Proc.devRef .tc main_v5))
          (W4 m ρ c (Proc.devRef .tc main_v6)) (W4 m ρ c (Proc.devRef .tc main_v29)) (W4 m ρ c (Proc.devRef .tc main_arg4)))) := by
  host_read hostOps1, (W4 m ρ c)

/-- After the second region: its output cut, aggregated with the second bias, clamped, padded. -/
theorem table2 (c : Dev nD) :
    W7 m ρ c (Proc.devRef .tc main_v78)
      = pad (relu (agg (unpad (W6 m ρ c (Proc.devRef .tc main_v56))) (W6 m ρ c (Proc.devRef .tc main_v5))
          (W6 m ρ c (Proc.devRef .tc main_v6)) (W6 m ρ c (Proc.devRef .tc main_v29)) (W6 m ρ c (Proc.devRef .tc main_arg6)))) := by
  host_read hostOps2, (W6 m ρ c)

/-- After the third region: its output cut, aggregated with the third bias, pooled. -/
theorem result3 (c : Dev nD) :
    W9 m ρ c (Proc.devRef .tc main_v112)
      = pool (agg (unpad (W8 m ρ c (Proc.devRef .tc main_v79))) (W8 m ρ c (Proc.devRef .tc main_v5))
          (W8 m ρ c (Proc.devRef .tc main_v6)) (W8 m ρ c (Proc.devRef .tc main_v29)) (W8 m ρ c (Proc.devRef .tc main_arg8)))
          (W8 m ρ c (Proc.devRef .tc main_arg2)) (W8 m ρ c (Proc.devRef .tc main_arg9)) (W8 m ρ c (Proc.devRef .tc main_arg10)) := by
  host_read hostOps3, (W8 m ρ c)

end AnyFloats

/-! ## The result over the extended reals -/

section Ideal

variable (m : (ℓ : Loc nD τ sig) → Buf (Elt Ideal) ℓ) (ρ : Dev nD → PrngReg)

/-- One layer at the kernel's product: transform, then aggregate along the edge list with the layer's bias. -/
def layerK (h : FVec Ideal S50000x128 .f32) (w : FVec Ideal S128x128 .f32) (e : Vec Ideal S2x600000 .i32)
    (b : FVec Ideal S128 .f32) : FVec Ideal S50000x128 .f32 :=
  agg (mmK h w) (src e) (dst e) (norm (src e) (dst e)) b

/-- Each region's output array after its run: the padded table at its entry times the layer's matrix. -/
theorem region0_out (c : Dev nD) :
    W4 m ρ c (Proc.devRef .tc main_v33)
      = rowsTimes (W3 m ρ c (Proc.devRef .tc main_v32)) (W3 m ρ c (Proc.devRef .tc main_arg3)) :=
  (W4_arr m ρ c 2).trans (Region0.final (V3 m ρ) c)

theorem region1_out (c : Dev nD) :
    W6 m ρ c (Proc.devRef .tc main_v56)
      = rowsTimes (W5 m ρ c (Proc.devRef .tc main_v55)) (W5 m ρ c (Proc.devRef .tc main_arg5)) :=
  (W6_arr m ρ c 2).trans (Region1.final (V5 m ρ) c)

theorem region2_out (c : Dev nD) :
    W8 m ρ c (Proc.devRef .tc main_v79)
      = rowsTimes (W7 m ρ c (Proc.devRef .tc main_v78)) (W7 m ρ c (Proc.devRef .tc main_arg7)) :=
  (W8_arr m ρ c 2).trans (Region2.final (V7 m ρ) c)

/-- THE KERNEL'S RESULT: the last boundary's contents at the result buffer are the network at the kernel's layer
    product, of the arguments' launch contents. -/
theorem result (c : Dev nD) :
    W9 m ρ c (Proc.devRef .tc main_v112)
      = out mmK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) (m ((c : Thread nD τ).loc main_arg10)) := by
  have k3 := kept_entry0 m ρ c
  have k4 := kept_exit0 m ρ c k3
  have k5 := kept_entry1 m ρ c k4
  have k6 := kept_exit1 m ρ c k5
  have k7 := kept_entry2 m ρ c k6
  have k8 := kept_exit2 m ρ c k7
  -- the first layer
  have cut0 : unpad (W4 m ρ c (Proc.devRef .tc main_v33)) = mmK (m ((c : Thread nD τ).loc main_arg0)) (m ((c : Thread nD τ).loc main_arg3)) := by
    rw [region0_out, table0, matrix0]; rfl
  have t1 : W5 m ρ c (Proc.devRef .tc main_v55)
      = pad (relu (layerK (m ((c : Thread nD τ).loc main_arg0)) (m ((c : Thread nD τ).loc main_arg3)) (m ((c : Thread nD τ).loc main_arg1)) (m ((c : Thread nD τ).loc main_arg4)))) := by
    rw [table1, cut0, k4.src, k4.dst, k4.norm, k4.a4]; rfl
  -- the second layer
  have cut1 : unpad (W6 m ρ c (Proc.devRef .tc main_v56))
      = mmK (relu (layerK (m ((c : Thread nD τ).loc main_arg0)) (m ((c : Thread nD τ).loc main_arg3)) (m ((c : Thread nD τ).loc main_arg1)) (m ((c : Thread nD τ).loc main_arg4)))) (m ((c : Thread nD τ).loc main_arg5)) := by
    rw [region1_out, t1, matrix1]; rfl
  have t2 : W7 m ρ c (Proc.devRef .tc main_v78)
      = pad (relu (layerK (relu (layerK (m ((c : Thread nD τ).loc main_arg0)) (m ((c : Thread nD τ).loc main_arg3)) (m ((c : Thread nD τ).loc main_arg1)) (m ((c : Thread nD τ).loc main_arg4)))) (m ((c : Thread nD τ).loc main_arg5)) (m ((c : Thread nD τ).loc main_arg1)) (m ((c : Thread nD τ).loc main_arg6)))) := by
    rw [table2, cut1, k6.src, k6.dst, k6.norm, k6.a6]; rfl
  -- the third layer and the pooling
  have cut2 : unpad (W8 m ρ c (Proc.devRef .tc main_v79))
      = mmK (relu (layerK (relu (layerK (m ((c : Thread nD τ).loc main_arg0)) (m ((c : Thread nD τ).loc main_arg3)) (m ((c : Thread nD τ).loc main_arg1)) (m ((c : Thread nD τ).loc main_arg4)))) (m ((c : Thread nD τ).loc main_arg5)) (m ((c : Thread nD τ).loc main_arg1)) (m ((c : Thread nD τ).loc main_arg6)))) (m ((c : Thread nD τ).loc main_arg7)) := by
    rw [region2_out, t2, matrix2]; rfl
  rw [result3, cut2, k8.src, k8.dst, k8.norm, k8.a8, k8.a2, k8.a9, k8.a10]
  rfl

end Ideal

end Cert.Gcn.KernelValue

end
-- ==== Proof.LibScatterSet.lean ====
/-
  A host scatter whose body returns the update (an indexed assignment), read at one operand index.

  The printed scatter is a left fold over the update's indices in row-major order: each update index `j` that lands
  inside the operand, at `resultIdx? j`, overwrites the element there; one that lands outside is dropped. So at an
  operand index `i` that exactly one update index `j0` lands on, the result holds `upd j0`, whatever the order of
  the fold; at an index no update lands on, it holds the operand's own element.
-/
import Idealize.ShloMosaic.PureOps.ShapeOps

namespace Cert.LibScatterSet

open Idealize.ShloMosaic

section Fold

variable {ι κ α : Type} [DecidableEq κ] (g : ι → Option κ) (v : ι → α)

/-- One step of the fold: the update `n` overwrites the element it lands on, if it lands anywhere. -/
def step (r : κ → α) (n : ι) : κ → α :=
  (g n).elim r (fun i i' => if i' = i then v n else r i')

/-- An index that no update of the list lands on keeps its starting element. -/
theorem foldl_step_of_no_hit (l : List ι) (x : κ → α) (i' : κ) (h : ∀ n ∈ l, g n ≠ some i') :
    (l.foldl (step g v) x) i' = x i' := by
  induction l generalizing x with
  | nil => rfl
  | cons a t ih =>
    rw [List.foldl_cons, ih _ (fun n hn => h n (List.mem_cons_of_mem _ hn))]
    unfold step
    cases hga : g a with
    | none => rfl
    | some i =>
      show (if i' = i then v a else x i') = x i'
      rw [if_neg]
      intro e
      exact h a List.mem_cons_self (by rw [hga, e])

/-- An index that exactly one update `n0` of the list lands on ends holding that update's value. -/
theorem foldl_step_of_one_hit (l : List ι) (x : κ → α) (i' : κ) (n0 : ι) (hmem : n0 ∈ l) (hg : g n0 = some i')
    (huniq : ∀ n ∈ l, g n = some i' → n = n0) : (l.foldl (step g v) x) i' = v n0 := by
  induction l generalizing x with
  | nil => cases hmem
  | cons a t ih =>
    rw [List.foldl_cons]
    by_cases ht : n0 ∈ t
    · exact ih _ ht (fun n hn => huniq n (List.mem_cons_of_mem _ hn))
    · have ha : n0 = a := by
        rcases List.mem_cons.1 hmem with e | e
        · exact e
        · exact absurd e ht
      subst ha
      rw [foldl_step_of_no_hit g v t _ i' (fun n hn e => ht ((huniq n (List.mem_cons_of_mem _ hn) e) ▸ hn))]
      unfold step
      rw [hg]
      show (if i' = i' then v n0 else x i') = v n0
      rw [if_pos rfl]

end Fold

variable {α : Type} {s si u : Shape} {w : Nat}

/-- The printed scatter as the fold of `step`, for a body that returns the update. -/
theorem scatter_set_eq_foldl (d : ScatterDims s si u) (x : s.Idx → α) (idx : IVec si w) (upd : u.Idx → α) :
    Host.scatter d (fun _ b => b) x idx upd
      = (List.finRange u.numel).foldl
          (step (fun n => d.resultIdx? (u.rowMajor.symm n) idx) (fun n => upd (u.rowMajor.symm n))) x := by
  unfold Host.scatter
  congr 1
  funext r n
  unfold step
  dsimp only
  cases d.resultIdx? (u.rowMajor.symm n) idx <;> rfl

/-- THE READ: at an operand index `i` that the update index `j0`, and no other, lands on, a scatter whose body
    returns the update holds `upd j0`. -/
theorem scatter_set_apply (d : ScatterDims s si u) (x : s.Idx → α) (idx : IVec si w) (upd : u.Idx → α) (i : s.Idx)
    (j0 : u.Idx) (hj0 : d.resultIdx? j0 idx = some i) (huniq : ∀ j, d.resultIdx? j idx = some i → j = j0) :
    Host.scatter d (fun _ b => b) x idx upd i = upd j0 := by
  rw [scatter_set_eq_foldl]
  have h := foldl_step_of_one_hit (fun n => d.resultIdx? (u.rowMajor.symm n) idx) (fun n => upd (u.rowMajor.symm n))
    (List.finRange u.numel) x i (u.rowMajor j0) (List.mem_finRange _)
    (by show d.resultIdx? (u.rowMajor.symm (u.rowMajor j0)) idx = some i; rw [Equiv.symm_apply_apply]; exact hj0)
    (fun n _ hn => by
      have e := huniq _ hn
      rw [← e, Equiv.apply_symm_apply])
  rw [h]
  show upd (u.rowMajor.symm (u.rowMajor j0)) = upd j0
  rw [Equiv.symm_apply_apply]

/-- At an operand index no update lands on, the scatter leaves the operand's element. -/
theorem scatter_set_apply_of_no_hit (d : ScatterDims s si u) (x : s.Idx → α) (idx : IVec si w) (upd : u.Idx → α)
    (i : s.Idx) (h : ∀ j, d.resultIdx? j idx ≠ some i) :
    Host.scatter d (fun _ b => b) x idx upd i = x i := by
  rw [scatter_set_eq_foldl]
  exact foldl_step_of_no_hit _ _ _ x i (fun n _ => h _)

end Cert.LibScatterSet
-- ==== Proof.PadCut.lean ====
/-
  Padding the node table with zero rows, multiplying row by row and cutting the first 50000 rows out again is the
  plain product of the table with the matrix: a row below 50000 of the padded table is the table's own row.
-/
import proofs.«400497_j7060926234753_4_alg».proof.Proof.Spec
import proofs.«400497_j7060926234753_4_alg».proof.Proof.LibScatterSet
import proofs.«400497_j7060926234753_4_alg».proof.ReferenceIdeal
import proofs.«400497_j7060926234753_4_alg».proof.Proof.Gen.KernelIdeal
import proofs.«400497_j7060926234753_4_alg».proof.Proof.Gen.ReferenceIdeal
import Idealize.ShloMosaic.Lib.Pipeline.Value
import Idealize.ShloMosaic.Lib.ValueIdx
import Idealize.ShloMosaic.PureOps.Ideal.Laws

noncomputable section

namespace Cert.Gcn

open Idealize.ShloMosaic Idealize.ShloMosaic.TcCoe

open Idealize.ShloMosaic.ValueIdx

/-! ## The padded table at a row below 50000

The scatter that pads writes the whole [50000, 128] table at the start index 0 into a [50176, 128] table of zeros: both
operand axes are window axes, in order, and the one start component (for the row axis) is read off an index vector
that is zero. So the update index `(a, b)` lands on the operand index `(a, b)`, and on no other. -/

section PadRead
variable [Cert.KernelIdeal.Facts₀]

open Cert.KernelIdeal in
/-- The window starts at row 0: the row axis reads its start off the index vector, which is zero. -/
theorem padStart_0 (j : S50000x128.Idx) (idx : IVec S1 32) (hidx : ∀ i, idx i = 0#32) :
    scatter_S50176x128_S1_S50000x128_01_n_0_0.start j idx 0 = 0 := by
  have hm : (0 : Fin S50176x128.rank) ∈ scatter_S50176x128_S1_S50000x128_01_n_0_0.scatterDimsToOperandDims :=
    List.mem_singleton.mpr rfl
  unfold ScatterDims.start
  rw [dif_pos hm, hidx]
  rfl

open Cert.KernelIdeal in
/-- The window starts at column 0: the column axis is not a scattered axis. -/
theorem padStart_1 (j : S50000x128.Idx) (idx : IVec S1 32) :
    scatter_S50176x128_S1_S50000x128_01_n_0_0.start j idx 1 = 0 := by
  have hm : ¬ (1 : Fin S50176x128.rank) ∈ scatter_S50176x128_S1_S50000x128_01_n_0_0.scatterDimsToOperandDims :=
    fun h => absurd (List.mem_singleton.mp h) (by decide)
  unfold ScatterDims.start
  rw [dif_neg hm]

open Cert.KernelIdeal in
/-- Inside the window the row coordinate is the update's row … -/
theorem padWindow_0 (j : S50000x128.Idx) :
    scatter_S50176x128_S1_S50000x128_01_n_0_0.window j 0 = (j 0).val := rfl

open Cert.KernelIdeal in
/-- … and the column coordinate the update's column. -/
theorem padWindow_1 (j : S50000x128.Idx) :
    scatter_S50176x128_S1_S50000x128_01_n_0_0.window j 1 = (j 1).val := rfl

open Cert.KernelIdeal in
/-- Start plus window coordinate on the row axis: the update's row. -/
theorem padLand_0 (j : S50000x128.Idx) (idx : IVec S1 32) (hidx : ∀ i, idx i = 0#32) :
    scatter_S50176x128_S1_S50000x128_01_n_0_0.start j idx 0
      + (scatter_S50176x128_S1_S50000x128_01_n_0_0.window j 0 : Int) = ((j 0).val : Int) := by
  rw [padStart_0 j idx hidx, padWindow_0, zero_add]

open Cert.KernelIdeal in
/-- Start plus window coordinate on the column axis: the update's column. -/
theorem padLand_1 (j : S50000x128.Idx) (idx : IVec S1 32) :
    scatter_S50176x128_S1_S50000x128_01_n_0_0.start j idx 1
      + (scatter_S50176x128_S1_S50000x128_01_n_0_0.window j 1 : Int) = ((j 1).val : Int) := by
  rw [padStart_1, padWindow_1, zero_add]

/-- Row `r` of the table as a row of the padded table. -/
abbrev padRow (r : Fin 50000) : Fin 50176 := ⟨r.val, Nat.lt_of_lt_of_le r.isLt (by decide)⟩

open Cert.KernelIdeal in
/-- The update index `(r, k)` lands on the operand index `(r, k)`. -/
theorem padResultIdx (r : Fin 50000) (k : Fin 128) (idx : IVec S1 32) (hidx : ∀ i, idx i = 0#32) :
    scatter_S50176x128_S1_S50000x128_01_n_0_0.resultIdx? (ix2 r k) idx = some (ix2 (padRow r) k) := by
  have hsum : ∀ a : Fin S50176x128.rank,
      scatter_S50176x128_S1_S50000x128_01_n_0_0.start (ix2 r k) idx a
        + (scatter_S50176x128_S1_S50000x128_01_n_0_0.window (ix2 r k) a : Int)
        = (((ix2 (padRow r) k : S50176x128.Idx) a).val : Int) := fun a =>
    match a with
    | ⟨0, _⟩ => padLand_0 (ix2 r k) idx hidx
    | ⟨1, _⟩ => padLand_1 (ix2 r k) idx
  unfold ScatterDims.resultIdx?
  split
  · refine congrArg some (funext fun a => Fin.ext ?_)
    show (scatter_S50176x128_S1_S50000x128_01_n_0_0.start (ix2 r k) idx a
        + (scatter_S50176x128_S1_S50000x128_01_n_0_0.window (ix2 r k) a : Int)).toNat = _
    rw [hsum a]
    exact Int.toNat_natCast _
  · rename_i hn
    refine (hn fun a => ?_).elim
    rw [hsum a]
    exact ⟨Int.natCast_nonneg _, Int.ofNat_lt.mpr (Fin.isLt _)⟩

open Cert.KernelIdeal in
/-- No other update index lands there: an update index is its two coordinates. -/
theorem padResultIdx_inj (r : Fin 50000) (k : Fin 128) (idx : IVec S1 32) (hidx : ∀ i, idx i = 0#32)
    (j : S50000x128.Idx)
    (hj : scatter_S50176x128_S1_S50000x128_01_n_0_0.resultIdx? j idx = some (ix2 (padRow r) k)) :
    j = ix2 r k := by
  obtain ⟨r', k', rfl⟩ : ∃ (r' : Fin 50000) (k' : Fin 128), j = ix2 r' k' := ⟨j 0, j 1, eq_ix2 j⟩
  rw [padResultIdx r' k' idx hidx] at hj
  have e := Option.some.inj hj
  have e0 := congrArg Fin.val (congrFun e 0)
  have e0 : r'.val = r.val := e0
  have e1 : k' = k := congrFun e 1
  obtain rfl : r' = r := Fin.ext e0
  rw [e1]

end PadRead

/-- THE PADDED TABLE AT A ROW BELOW 50000 is the table's own row. -/
theorem pad_apply [Cert.KernelIdeal.Facts] (h : FVec Ideal Cert.KernelIdeal.S50000x128 .f32) (r : Fin 50000)
    (k : Fin 128) : pad h (ix2 (padRow r) k) = h (ix2 r k) := by
  unfold pad
  exact Cert.LibScatterSet.scatter_set_apply _ _ _ h _ (ix2 r k)
    (padResultIdx r k _ (fun _ => rfl)) (fun j hj => padResultIdx_inj r k _ (fun _ => rfl) j hj)

/-! ## The reference's product at an index

The reference contracts the table's column axis against the matrix's row axis, with no batch axis: at the result index
`(r, q)` and the contraction position `k` the operand indices are `(r, k)` and `(k, q)`. -/

section RefDot
variable [Cert.ReferenceIdeal.Facts₀]

open Cert.ReferenceIdeal in
/-- The table is read at the result's row … -/
theorem refLhs_0 (j : S50000x128.Idx) (kk : dot_S50000x128_S128x128_S50000x128_1_0_0_1_n_n.contr.Idx) :
    (dot_S50000x128_S128x128_S50000x128_1_0_0_1_n_n.lhsIdx j kk 0).val = (j 0).val := rfl

open Cert.ReferenceIdeal in
/-- … and at the contraction position's column. -/
theorem refLhs_1 (j : S50000x128.Idx) (kk : dot_S50000x128_S128x128_S50000x128_1_0_0_1_n_n.contr.Idx) :
    (dot_S50000x128_S128x128_S50000x128_1_0_0_1_n_n.lhsIdx j kk 1).val = (kk ⟨0, Nat.one_pos⟩).val := rfl

open Cert.ReferenceIdeal in
/-- The matrix is read at the contraction position's row … -/
theorem refRhs_0 (j : S50000x128.Idx) (kk : dot_S50000x128_S128x128_S50000x128_1_0_0_1_n_n.contr.Idx) :
    (dot_S50000x128_S128x128_S50000x128_1_0_0_1_n_n.rhsIdx j kk 0).val = (kk ⟨0, Nat.one_pos⟩).val := rfl

open Cert.ReferenceIdeal in
/-- … and at the result's column. -/
theorem refRhs_1 (j : S50000x128.Idx) (kk : dot_S50000x128_S128x128_S50000x128_1_0_0_1_n_n.contr.Idx) :
    (dot_S50000x128_S128x128_S50000x128_1_0_0_1_n_n.rhsIdx j kk 1).val = (j 1).val := rfl

open Cert.ReferenceIdeal in
/-- THE REFERENCE'S PRODUCT AT `(r, q)`: the sum over the 128 columns of row `r` against column `q`. -/
theorem refDot_apply (h : FVec Ideal S50000x128 .f32) (w : FVec Ideal S128x128 .f32) (r : Fin 50000) (q : Fin 128) :
    Host.dotGeneral dot_S50000x128_S128x128_S50000x128_1_0_0_1_n_n none h w (ix2 r q)
      = ∑ k : Fin 128, h (ix2 r k) * w (ix2 k q) := by
  simp only [Host.dotGeneral]
  rw [Ideal.dotGeneral_apply,
    ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 r q)
      ((contrEquiv1 dot_S50000x128_S128x128_S50000x128_1_0_0_1_n_n 128 rfl rfl).symm k) = ix2 r k :=
    funext fun a => Fin.ext (by
      match a with
      | ⟨0, _⟩ => exact refLhs_0 _ _
      | ⟨1, _⟩ => exact (refLhs_1 _ _).trans hk)
  have er : dot_S50000x128_S128x128_S50000x128_1_0_0_1_n_n.rhsIdx (ix2 r q)
      ((contrEquiv1 dot_S50000x128_S128x128_S50000x128_1_0_0_1_n_n 128 rfl rfl).symm k) = ix2 k q :=
    funext fun a => Fin.ext (by
      match a with
      | ⟨0, _⟩ => exact (refRhs_0 _ _).trans hk
      | ⟨1, _⟩ => exact refRhs_1 _ _)
  rw [el, er]

end RefDot

/-! ## The kernel's layer product is the reference's -/

/-- The kernel's layer product (pad, multiply by rows, cut) is the reference's matrix product, over the extended
    reals, for every table and matrix. -/
theorem mmK_eq (h : FVec Ideal Cert.KernelIdeal.S50000x128 .f32) (w : FVec Ideal Cert.KernelIdeal.S128x128 .f32) :
    mmK h w = Host.dotGeneral Cert.ReferenceIdeal.dot_S50000x128_S128x128_S50000x128_1_0_0_1_n_n none h w := by
  funext i
  obtain ⟨r, q, rfl⟩ : ∃ (r : Fin 50000) (q : Fin 128), i = ix2 r q := ⟨i 0, i 1, eq_ix2 i⟩
  rw [refDot_apply h w r q]
  unfold mmK unpad
  rw [extractStridedSlice_apply (![0, 0]) (rowsTimes (pad h) w) _ (ix2 r q) (ix2 (padRow r) q)
    (fun a => by
      match a with
      | ⟨0, _⟩ => exact (Nat.zero_add _).symm
      | ⟨1, _⟩ => exact (Nat.zero_add _).symm)]
  show ∑ k : Fin 128, pad h (ix2 (padRow r) k) * w (ix2 k q) = _
  exact Finset.sum_congr rfl fun k _ => by rw [pad_apply h r k]

end Cert.Gcn

end
-- ==== Proof.RefSide.lean ====
/-
  The reference's result, as the network of proof/Proof/Spec.lean at the plain matrix product.

  The reference's run ends with its result buffer at the composed term of its host operations over the arguments.
  That term is, operation for operation, the specification `out` with the host's `dot_general` as the layer product:
  the same slices, concatenations, scatter-additions, gathers, products and broadcasts, over shape records that are
  equal field by field.
-/
import proofs.«400497_j7060926234753_4_alg».proof.Proof.RefRunPatched
import proofs.«400497_j7060926234753_4_alg».proof.Proof.Spec
import proofs.«400497_j7060926234753_4_alg».proof.Proof.Gen.KernelIdeal

noncomputable section

namespace Cert.Gcn

open Idealize.ShloMosaic Idealize.ShloMosaic.TcCoe Idealize.SL.Sem

variable {F : FTy → Type} [FloatOps F]

/-- The reference's layer product: the host's `dot_general` of the [50000, 128] table with the square matrix. -/
def mmR (h : FVec F Cert.KernelIdeal.S50000x128 .f32) (w : FVec F Cert.KernelIdeal.S128x128 .f32) :
    FVec F Cert.KernelIdeal.S50000x128 .f32 :=
  Host.dotGeneral Cert.ReferenceIdeal.dot_S50000x128_S128x128_S50000x128_1_0_0_1_n_n none h w

set_option maxRecDepth 16384 in
set_option maxHeartbeats 4000000 in
/-- The reference run's result term is the network at the plain product, of the arguments' launch contents. -/
theorem ref_result (m : (ℓ : Loc Cert.ReferenceIdeal.nD Cert.ReferenceIdeal.τ Cert.ReferenceIdeal.sig) → Buf (Elt F) ℓ)
    (c : Dev Cert.ReferenceIdeal.nD) :
    Cert.ReferenceIdeal.RunPatched.res_main_v98 m c
      = out (mmR (F := F)) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))
          (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) := by
  unfold Cert.ReferenceIdeal.RunPatched.res_main_v98
  rfl

end Cert.Gcn

end
-- ==== Proof.lean ====
/-
  The certificate of a three-layer graph convolution network: a kernel whose dense layer transform is a row-blocked
  matrix product on a zero-padded node table, against the plain-array reference.

  Both programs build the same normalised adjacency from the edge list (self-loops added, every list entry weighted
  by the inverse square roots of its two ends' degrees), and per layer transform the node table by a square matrix,
  gather the transformed rows at the list's sources, weight them, add them up at the destinations and add a bias;
  two clamped layers and one plain layer are followed by a mean over node groups and a last matrix product. They
  differ in the layer transform alone. The reference multiplies the [50000, 128] table by the matrix. The kernel
  writes the table into the first 50000 rows of a [50176, 128] table of zeros, multiplies it 1568 rows at a time at
  32 grid points, and keeps the first 50000 rows of the product. Over the extended reals an entry (r, q), r < 50000,
  is the sum over k of table(r, k) · matrix(k, q) either way: the padded table's row r is the table's row r, a block
  product's entry is its row against its column, and the 32 blocks tile the rows. No law of arithmetic beyond the
  equality of these sums is used, so the finiteness of the inputs is never opened.

  The parts: proof/Proof/Spec.lean states the network as one function `out` of the arguments with the layer
  transform as a parameter; BlockRows0–2 show each region's output array is the padded table times its matrix;
  PadCut shows pad–multiply–cut is the plain product; KernelValue reads the kernel's result buffer back through its
  host stretches and regions to `out` at the kernel's transform; RefSide shows the reference's result term is `out`
  at the plain product; KernelRun and RefRunPatched are the two programs' runs. The three frames are the kernel
  programs' generated frames and the reference's run with its result dropped; the idealization rewrote no operation,
  so `preserves` has nothing to state.
-/
import proofs.«400497_j7060926234753_4_alg».proof.Defs
import proofs.«400497_j7060926234753_4_alg».proof.Proof.Gen.Kernel
import proofs.«400497_j7060926234753_4_alg».proof.Proof.Gen.Kernel.Skeleton
import proofs.«400497_j7060926234753_4_alg».proof.Proof.Gen.Kernel.Launch
import proofs.«400497_j7060926234753_4_alg».proof.Proof.Gen.Kernel.Points
import proofs.«400497_j7060926234753_4_alg».proof.Proof.Gen.Kernel.Frame
import proofs.«400497_j7060926234753_4_alg».proof.Proof.Gen.KernelIdeal
import proofs.«400497_j7060926234753_4_alg».proof.Proof.Gen.KernelIdeal.Skeleton
import proofs.«400497_j7060926234753_4_alg».proof.Proof.Gen.KernelIdeal.Launch
import proofs.«400497_j7060926234753_4_alg».proof.Proof.Gen.KernelIdeal.Points
import proofs.«400497_j7060926234753_4_alg».proof.Proof.Gen.KernelIdeal.Frame
import proofs.«400497_j7060926234753_4_alg».proof.Proof.Gen.ReferenceIdeal
import proofs.«400497_j7060926234753_4_alg».proof.Proof.Gen.Pre_finite_inputs
import proofs.«400497_j7060926234753_4_alg».proof.Proof.KernelRun
import proofs.«400497_j7060926234753_4_alg».proof.Proof.KernelValue
import proofs.«400497_j7060926234753_4_alg».proof.Proof.PadCut
import proofs.«400497_j7060926234753_4_alg».proof.Proof.RefRunPatched
import proofs.«400497_j7060926234753_4_alg».proof.Proof.RefSide
import Idealize.ShloMosaic.Adequacy
import Idealize.ShloMosaic.Init

noncomputable section

namespace Cert.Proof

open Idealize.ShloMosaic Idealize.ShloMosaic.TcCoe Idealize.SL.Sem Cert.Gcn

/-- The two layer transforms are one function over the extended reals. -/
theorem transforms_agree : (mmR (F := Ideal)) = mmK :=
  funext fun h => funext fun w => (mmK_eq h w).symm

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2)
    (Cert.ReferenceIdeal.RunPatched.run (F := Ideal) m ρ)

/-- From memories that agree on the arguments both programs end with the network `out` of the arguments in their
    result buffers: the kernel at its own layer transform, the reference at the plain product, and the two transforms
    agree. -/
theorem algebraic : Cert.algebraic_KernelIdeal_ReferenceIdeal := by
  intro m ρ m' ρ' _ hagree
  refine ⟨fun c => out mmK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.Gcn.KernelValue.result m ρ c), (h c).2⟩)
      (Cert.KernelIdeal.ValueRun.run_result m ρ)
  · refine (θ_run Cert.ReferenceIdeal.defs _ _).mono (fun _ h c => ⟨(h c).1.trans ?_, (h c).2⟩)
      (Cert.ReferenceIdeal.RunPatched.run (F := Ideal) m' ρ')
    obtain ⟨e0, e1, e2, e3, e4, e5, e6, e7, e8, e9, e10⟩ := hagree c
    rw [ref_result, e0, e1, e2, e3, e4, e5, e6, e7, e8, e9, e10, transforms_agree]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
